-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000 : S_.BroadcastsInDim S10000 (![] : Fin 0 → Fin S10000.rank)
  reducesTo_S10000_S_d0 : S10000.ReducesTo [0] S_
  bcast_S_S10000x512 : S_.BroadcastsInDim S10000x512 (![] : Fin 0 → Fin S10000x512.rank)
  reducesTo_S10000x512_S_d0_1 : S10000x512.ReducesTo [0, 1] S_
  bcast_S_S100 : S_.BroadcastsInDim S100 (![] : Fin 0 → Fin S100.rank)
  reducesTo_S100_S_d0 : S100.ReducesTo [0] S_
  bcast_S_S768x356 : S_.BroadcastsInDim S768x356 (![] : Fin 0 → Fin S768x356.rank)
  reducesTo_S768x356_S_d0_1 : S768x356.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S768x356 .f32) (main_arg8 : FVec F S768x256 .f32) (main_arg9 : FVec F S768 .f32) (main_arg10 : FVec F S768 .f32) (main_arg11 : FVec F S256x512 .f32) (main_arg12 : FVec F S256 .f32) (main_v33 : IVec S_ 1) : IVec S_ 1 :=
  let main_v34 : FVec F S768x356 .f32 := Host.absf main_arg7
  let main_cst_12 : FVec F S_ .f32 := constant S_ .f32 0x7F800000#32
  let main_v35 : FVec F S768x356 .f32 := broadcastInDim S768x356 ![] bcast_S_S768x356 main_cst_12
  let main_v36 : IVec S768x356 1 := cmpf .olt main_v34 main_v35
  let main_c_13 : IVec S_ 1 := constantI S_ 1 1#1
  let main_v37 : IVec S_ 1 := (fun x v => Host.reduce IntOp.andi x v reducesTo_S768x356_S_d0_1 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_v48 main_v49 main_v50

def fn_part1 {F : FTy → Type} [FloatOps F] (main_arg4 : FVec F S10000x512 .f32) (main_arg5 : FVec F S100 .f32) (main_arg6 : FVec F S100 .f32) (main_arg7 : FVec F S768x356 .f32) (main_arg8 : FVec F S768x256 .f32) (main_arg9 : FVec F S768 .f32) (main_arg10 : FVec F S768 .f32) (main_arg11 : FVec F S256x512 .f32) (main_arg12 : FVec F S256 .f32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_v19 : FVec F S10000x512 .f32 := Host.absf main_arg4
  let main_cst_6 : FVec F S_ .f32 := constant S_ .f32 0x7F800000#32
  let main_v20 : FVec F S10000x512 .f32 := broadcastInDim S10000x512 ![] bcast_S_S10000x512 main_cst_6
  let main_v21 : IVec S10000x512 1 := cmpf .olt main_v19 main_v20
  let main_c_7 : IVec S_ 1 := constantI S_ 1 1#1
  let main_v22 : IVec S_ 1 := (fun x v => Host.reduce IntOp.andi x v reducesTo_S10000x512_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x256 .f32) (main_arg1 : FVec F S10000x256 .f32) (main_arg2 : FVec F S10000 .f32) (main_arg3 : FVec F S10000 .f32) (main_arg4 : FVec F S10000x512 .f32) (main_arg5 : FVec F S100 .f32) (main_arg6 : FVec F S100 .f32) (main_arg7 : FVec F S768x356 .f32) (main_arg8 : FVec F S768x256 .f32) (main_arg9 : FVec F S768 .f32) (main_arg10 : FVec F S768 .f32) (main_arg11 : FVec F S256x512 .f32) (main_arg12 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg4 main_arg5 main_arg6 main_arg7 main_arg8 main_arg9 main_arg10 main_arg11 main_arg12 main_v13 main_v16
-- ==== Kernel.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S256x768 : Shape := ⟨2, ![256, 768]⟩
abbrev S_ : Shape := ⟨0, ![]⟩
abbrev S128x768 : Shape := ⟨2, ![128, 768]⟩
abbrev S768x100 : Shape := ⟨2, ![768, 100]⟩
abbrev S100x768 : Shape := ⟨2, ![100, 768]⟩
abbrev S1 : Shape := ⟨1, ![1]⟩
abbrev S512x256 : Shape := ⟨2, ![512, 256]⟩
abbrev S1x128 : Shape := ⟨2, ![1, 128]⟩
abbrev S2 : Shape := ⟨1, ![2]⟩
abbrev S10000x1 : Shape := ⟨2, ![10000, 1]⟩
abbrev S1x768 : Shape := ⟨2, ![1, 768]⟩
abbrev S1x256 : Shape := ⟨2, ![1, 256]⟩
abbrev S2000x1 : Shape := ⟨2, ![2000, 1]⟩
abbrev S2000x256 : Shape := ⟨2, ![2000, 256]⟩
abbrev S2000x512 : Shape := ⟨2, ![2000, 512]⟩
abbrev S2000x128 : Shape := ⟨2, ![2000, 128]⟩
abbrev S2000x768 : Shape := ⟨2, ![2000, 768]⟩

abbrev nBuf : Space → Nat
  | .hbm => 49
  | .vmem => 21
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000, .f32⟩
  | .hbm, ⟨3, _⟩ => ⟨S10000, .f32⟩
  | .hbm, ⟨4, _⟩ => ⟨S10000x512, .f32⟩
  | .hbm, ⟨5, _⟩ => ⟨S100, .f32⟩
  | .hbm, ⟨6, _⟩ => ⟨S100, .f32⟩
  | .hbm, ⟨7, _⟩ => ⟨S768x356, .f32⟩
  | .hbm, ⟨8, _⟩ => ⟨S768x256, .f32⟩
  | .hbm, ⟨9, _⟩ => ⟨S768, .f32⟩
  | .hbm, ⟨10, _⟩ => ⟨S768, .f32⟩
  | .hbm, ⟨11, _⟩ => ⟨S256x512, .f32⟩
  | .hbm, ⟨12, _⟩ => ⟨S256, .f32⟩
  | .hbm, ⟨13, _⟩ => ⟨S768x256, .f32⟩
  | .hbm, ⟨14, _⟩ => ⟨S256x768, .f32⟩
  | .hbm, ⟨15, _⟩ => ⟨S_, .f32⟩
  | .hbm, ⟨16, _⟩ => ⟨S128x768, .f32⟩
  | .hbm, ⟨17, _⟩ => ⟨S768x100, .f32⟩
  | .hbm, ⟨18, _⟩ => ⟨S100x768, .f32⟩
  | .hbm, ⟨19, _⟩ => ⟨S_, .i32⟩
  | .hbm, ⟨20, _⟩ => ⟨S1, .i32⟩
  | .hbm, ⟨21, _⟩ => ⟨S128x768, .f32⟩
  | .hbm, ⟨22, _⟩ => ⟨S256x768, .f32⟩
  | .hbm, ⟨23, _⟩ => ⟨S512x256, .f32⟩
  | .hbm, ⟨24, _⟩ => ⟨S_, .f32⟩
  | .hbm, ⟨25, _⟩ => ⟨S1x128, .f32⟩
  | .hbm, ⟨26, _⟩ => ⟨S_, .f32⟩
  | .hbm, ⟨27, _⟩ => ⟨S100, .f32⟩
  | .hbm, ⟨28, _⟩ => ⟨S100, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S10000x1, .f32⟩
  | .hbm, ⟨44, _⟩ => ⟨S10000x1, .f32⟩
  | .hbm, ⟨45, _⟩ => ⟨S1x768, .f32⟩
  | .hbm, ⟨46, _⟩ => ⟨S1x768, .f32⟩
  | .hbm, ⟨47, _⟩ => ⟨S1x256, .f32⟩
  | .hbm, ⟨48, _⟩ => ⟨S10000x256, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x512, .f32⟩
  | .local _ .vmem, ⟨10, _⟩ => ⟨S2000x512, .f32⟩
  | .local _ .vmem, ⟨11, _⟩ => ⟨S1x128, .f32⟩
  | .local _ .vmem, ⟨12, _⟩ => ⟨S256x768, .f32⟩
  | .local _ .vmem, ⟨13, _⟩ => ⟨S128x768, .f32⟩
  | .local _ .vmem, ⟨14, _⟩ => ⟨S256x768, .f32⟩
  | .local _ .vmem, ⟨15, _⟩ => ⟨S512x256, .f32⟩
  | .local _ .vmem, ⟨16, _⟩ => ⟨S1x768, .f32⟩
  | .local _ .vmem, ⟨17, _⟩ => ⟨S1x768, .f32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_cst_0 : Ref sig .tc := ⟨.hbm, 24, rfl⟩
abbrev main_call0_v9 : Ref sig .tc := ⟨.hbm, 25, rfl⟩
abbrev main_call0_cst_1 : Ref sig .tc := ⟨.hbm, 26, rfl⟩
abbrev main_call0_v10 : Ref sig .tc := ⟨.hbm, 27, rfl⟩
abbrev main_call0_v11 : Ref sig .tc := ⟨.hbm, 28, rfl⟩
abbrev main_call0_c_2 : Ref sig .tc := ⟨.hbm, 29, rfl⟩
abbrev main_call0_v12 : Ref sig .tc := ⟨.hbm, 30, rfl⟩
abbrev main_call0_c_3 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_cst_4 : Ref sig .tc := ⟨.hbm, 35, rfl⟩
abbrev main_call0_v16 : Ref sig .tc := ⟨.hbm, 36, rfl⟩
abbrev main_call0_c_5 : Ref sig .tc := ⟨.hbm, 37, rfl⟩
abbrev main_call0_v17 : Ref sig .tc := ⟨.hbm, 38, rfl⟩
abbrev main_call0_c_6 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S768x356_S768x256_0_0 : S768x356.Slices ![0, 0] S768x256
  transposes_S768x256_S256x768_1_0 : S768x256.Transposes [1, 0] S256x768
  bcast_S_S128x768 : S_.BroadcastsInDim S128x768 (![] : Fin 0 → Fin S128x768.rank)
  slices_S768x356_S768x100_0_256 : S768x356.Slices ![0, 256] S768x100
  transposes_S768x100_S100x768_1_0 : S768x100.Transposes [1, 0] S100x768
  bcast_S_S1 : S_.BroadcastsInDim S1 (![] : Fin 0 → Fin S1.rank)
  transposes_S256x512_S512x256_1_0 : S256x512.Transposes [1, 0] S512x256
  bcast_S_S1x128 : S_.BroadcastsInDim S1x128 (![] : Fin 0 → Fin S1x128.rank)
  bcast_S_S100 : S_.BroadcastsInDim S100 (![] : Fin 0 → Fin S100.rank)
  concatenates_S1_S1_S2_d0 : Shape.Concatenates [S1, S1] S2 0
  shapeCasts_S10000_S10000x1 : S10000.ShapeCasts S10000x1
  shapeCasts_S768_S1x768 : S768.ShapeCasts S1x768
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S2000x256_S2000x256_0_0 : ∀ a, (![0, 0] : Fin 2 → Nat) a + S2000x256.size a ≤ S2000x256.size a
  h_S2000x256 : 0 < S2000x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S128x768_S1_S100x768_01_n_0_0_wf : ScatterDims.WF S128x768 S1 S100x768 [0, 1] [] [0] 0
  scatter_S1x128_S2_S100_0_0_01_0_wf : ScatterDims.WF S1x128 S2 S100 [0] [0] [0, 1] 0
  dot_S2000x256_S256x768_S2000x768_1_0_0_1_n_n_wf : DotDims.WF S2000x256 S256x768 S2000x768 [1] [0] [0] [1] [] []
  dot_S2000x128_S128x768_S2000x768_1_0_0_1_n_n_wf : DotDims.WF S2000x128 S128x768 S2000x768 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S10000x1.size a
  hwx0_0 : ∀ i : grid0.Coords, EltTy.bits .f32 = 32 ∨ (Rect.block (s := S10000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S10000x1.size a
  hwx0_1 : ∀ i : grid0.Coords, EltTy.bits .f32 = 32 ∨ (Rect.block (s := S10000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .f32 = 32 ∨ (Rect.block (s := S10000x512) S2000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x768.size a ≤ S128x768.size a
  hwx0_8 : ∀ i : grid0.Coords, EltTy.bits .f32 = 32 ∨ (Rect.block (s := S128x768) S128x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .f32 = 32 ∨ (Rect.block (s := S256x768) S256x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x768.size a ≤ S1x768.size a
  hwx0_12 : ∀ i : grid0.Coords, EltTy.bits .f32 = 32 ∨ (Rect.block (s := S1x768) S1x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x256.size a ≤ S10000x256.size a
  hwx0_14 : ∀ i : grid0.Coords, EltTy.bits .f32 = 32 ∨ (Rect.block (s := S10000x256) S2000x256.size (cc0_transform_14 i) (hinb0_14 i)).WholeWords (EltTy.packing .f32)

variable [Facts₀]

def scatter_S128x768_S1_S100x768_01_n_0_0 : ScatterDims S128x768 S1 S100x768 where
  updateWindowDims := [0, 1]
  insertedWindowDims := []
  scatterDimsToOperandDims := [0]
  indexVectorDim := 0
  wf := scatter_S128x768_S1_S100x768_01_n_0_0_wf
def scatter_S1x128_S2_S100_0_0_01_0 : ScatterDims S1x128 S2 S100 where
  updateWindowDims := [0]
  insertedWindowDims := [0]
  scatterDimsToOperandDims := [0, 1]
  indexVectorDim := 0
  wf := scatter_S1x128_S2_S100_0_0_01_0_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_call0_v21) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v22) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2000x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S128x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v8) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v23) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v24) S1x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S2000x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000 : Shape := ⟨1, ![10000]⟩
abbrev S10000x512 : Shape := ⟨2, ![10000, 512]⟩
abbrev S100 : Shape := ⟨1, ![100]⟩
abbrev S768x356 : Shape := ⟨2, ![768, 356]⟩
abbrev S768x256 : Shape := ⟨2, ![768, 256]⟩
abbrev S768 : Shape := ⟨1, ![768]⟩
abbrev S256x512 : Shape := ⟨2, ![256, 512]⟩
abbrev S256 : Shape := ⟨1, ![256]⟩
abbrev S10000x1 : Shape := ⟨2, ![10000, 1]⟩
abbrev S1x100 : Shape := ⟨2, ![1, 100]⟩
abbrev S10000x100 : Shape := ⟨2, ![10000, 100]⟩
abbrev S10000x356 : Shape := ⟨2, ![10000, 356]⟩
abbrev S356x768 : Shape := ⟨2, ![356, 768]⟩
abbrev S10000x768 : Shape := ⟨2, ![10000, 768]⟩
abbrev S1x768 : Shape := ⟨2, ![1, 768]⟩
abbrev S256x768 : Shape := ⟨2, ![256, 768]⟩
abbrev S_ : Shape := ⟨0, ![]⟩
abbrev S512x256 : Shape := ⟨2, ![512, 256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000, .f32⟩
  | .hbm, ⟨3, _⟩ => ⟨S10000, .f32⟩
  | .hbm, ⟨4, _⟩ => ⟨S10000x512, .f32⟩
  | .hbm, ⟨5, _⟩ => ⟨S100, .f32⟩
  | .hbm, ⟨6, _⟩ => ⟨S100, .f32⟩
  | .hbm, ⟨7, _⟩ => ⟨S768x356, .f32⟩
  | .hbm, ⟨8, _⟩ => ⟨S768x256, .f32⟩
  | .hbm, ⟨9, _⟩ => ⟨S768, .f32⟩
  | .hbm, ⟨10, _⟩ => ⟨S768, .f32⟩
  | .hbm, ⟨11, _⟩ => ⟨S256x512, .f32⟩
  | .hbm, ⟨12, _⟩ => ⟨S256, .f32⟩
  | .hbm, ⟨13, _⟩ => ⟨S10000, .f32⟩
  | .hbm, ⟨14, _⟩ => ⟨S10000x1, .f32⟩
  | .hbm, ⟨15, _⟩ => ⟨S1x100, .f32⟩
  | .hbm, ⟨16, _⟩ => ⟨S10000x100, .f32⟩
  | .hbm, ⟨17, _⟩ => ⟨S10000x100, .f32⟩
  | .hbm, ⟨18, _⟩ => ⟨S10000x100, .f32⟩
  | .hbm, ⟨19, _⟩ => ⟨S1x100, .f32⟩
  | .hbm, ⟨20, _⟩ => ⟨S10000x100, .f32⟩
  | .hbm, ⟨21, _⟩ => ⟨S10000x100, .f32⟩
  | .hbm, ⟨22, _⟩ => ⟨S10000x100, .f32⟩
  | .hbm, ⟨23, _⟩ => ⟨S10000x356, .f32⟩
  | .hbm, ⟨24, _⟩ => ⟨S356x768, .f32⟩
  | .hbm, ⟨25, _⟩ => ⟨S10000x768, .f32⟩
  | .hbm, ⟨26, _⟩ => ⟨S1x768, .f32⟩
  | .hbm, ⟨27, _⟩ => ⟨S10000x768, .f32⟩
  | .hbm, ⟨28, _⟩ => ⟨S10000x768, .f32⟩
  | .hbm, ⟨29, _⟩ => ⟨S256x768, .f32⟩
  | .hbm, ⟨30, _⟩ => ⟨S10000x768, .f32⟩
  | .hbm, ⟨31, _⟩ => ⟨S1x768, .f32⟩
  | .hbm, ⟨32, _⟩ => ⟨S10000x768, .f32⟩
  | .hbm, ⟨33, _⟩ => ⟨S10000x768, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S10000x256, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S10000x256, .f32⟩
  | .hbm, ⟨48, _⟩ => ⟨S10000x256, .f32⟩
  | .hbm, ⟨49, _⟩ => ⟨S10000x256, .f32⟩
  | .hbm, ⟨50, _⟩ => ⟨S10000x256, .f32⟩
  | .hbm, ⟨51, _⟩ => ⟨S10000x256, .f32⟩
  | .hbm, ⟨52, _⟩ => ⟨S_, .f32⟩
  | .hbm, ⟨53, _⟩ => ⟨S10000x256, .f32⟩
  | .hbm, ⟨54, _⟩ => ⟨S10000x256, .f32⟩
  | .hbm, ⟨55, _⟩ => ⟨S_, .f32⟩
  | .hbm, ⟨56, _⟩ => ⟨S10000x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S_, .f32⟩
  | .hbm, ⟨62, _⟩ => ⟨S10000x256, .f32⟩
  | .hbm, ⟨63, _⟩ => ⟨S10000x256, .f32⟩
  | .hbm, ⟨64, _⟩ => ⟨S10000x256, .f32⟩
  | .hbm, ⟨65, _⟩ => ⟨S10000x256, .f32⟩
  | .hbm, ⟨66, _⟩ => ⟨S10000x256, .f32⟩
  | .hbm, ⟨67, _⟩ => ⟨S512x256, .f32⟩
  | .hbm, ⟨68, _⟩ => ⟨S10000x256, .f32⟩
  | .hbm, ⟨69, _⟩ => ⟨S10000x256, .f32⟩
  | .hbm, ⟨70, _⟩ => ⟨S1x256, .f32⟩
  | .hbm, ⟨71, _⟩ => ⟨S10000x256, .f32⟩
  | .hbm, ⟨72, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S100_S1x100_1 : S100.BroadcastsInDim S1x100 (![1] : Fin 1 → Fin S1x100.rank)
  bcast_S10000x1_S10000x100_0_1 : S10000x1.BroadcastsInDim S10000x100 (![0, 1] : Fin 2 → Fin S10000x100.rank)
  bcast_S1x100_S10000x100_0_1 : S1x100.BroadcastsInDim S10000x100 (![0, 1] : Fin 2 → Fin S10000x100.rank)
  concatenates_S10000x256_S10000x100_S10000x356_d1 : Shape.Concatenates [S10000x256, S10000x100] S10000x356 1
  transposes_S768x356_S356x768_1_0 : S768x356.Transposes [1, 0] S356x768
  bcast_S768_S1x768_1 : S768.BroadcastsInDim S1x768 (![1] : Fin 1 → Fin S1x768.rank)
  bcast_S1x768_S10000x768_0_1 : S1x768.BroadcastsInDim S10000x768 (![0, 1] : Fin 2 → Fin S10000x768.rank)
  transposes_S768x256_S256x768_1_0 : S768x256.Transposes [1, 0] S256x768
  slices_S10000x768_S10000x256_0_0 : S10000x768.Slices ![0, 0] S10000x256
  slices_S10000x768_S10000x256_0_256 : S10000x768.Slices ![0, 256] S10000x256
  slices_S10000x768_S10000x256_0_512 : S10000x768.Slices ![0, 512] S10000x256
  bcast_S_S10000x256 : S_.BroadcastsInDim S10000x256 (![] : Fin 0 → Fin S10000x256.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x356_S356x768_S10000x768_1_0_0_1_n_n_wf : DotDims.WF S10000x356 S356x768 S10000x768 [1] [0] [0] [1] [] []
  dot_S10000x256_S256x768_S10000x768_1_0_0_1_n_n_wf : DotDims.WF S10000x256 S256x768 S10000x768 [1] [0] [0] [1] [] []
  dot_S10000x512_S512x256_S10000x256_1_0_0_1_n_n_wf : DotDims.WF S10000x512 S512x256 S10000x256 [1] [0] [0] [1] [] []

variable [Facts₀]

def dot_S10000x356_S356x768_S10000x768_1_0_0_1_n_n : DotDims S10000x356 S356x768 S10000x768 where
  lhsContracting := [1]
  rhsContracting := [0]
  lhsNonContracting := [0]
  rhsNonContracting := [1]
  lhsBatch := []
  rhsBatch := []
  wf := dot_S10000x356_S356x768_S10000x768_1_0_0_1_n_n_wf
def dot_S10000x256_S256x768_S10000x768_1_0_0_1_n_n : DotDims S10000x256 S256x768 S10000x768 where
  lhsContracting := [1]
  rhsContracting := [0]
  lhsNonContracting := [0]
  rhsNonContracting := [1]
  lhsBatch := []
  rhsBatch := []
  wf := dot_S10000x256_S256x768_S10000x768_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.LibScatterSet.lean ====
/-
  A host scatter whose body returns the update (`x.at[…].set(v)`), read at one element, when every update lands
  inside the operand and no two updates land on the same element: an element some update lands on holds that
  update, every other element keeps the operand's value.  Stated for any shapes and dimension numbers, over the
  landing map `g` of the update indices.
-/
import Idealize.ShloMosaic.PureOps.ShapeOps

namespace Cert.LibScatterSet

open Idealize.ShloMosaic

variable {α : Type} {s si u : Shape} {w : Nat}

/-- One update of a set-scatter, applied to the array built so far, when the update lands at `g j`. -/
theorem step_eq (d : ScatterDims s si u) (idx : IVec si w) (upd : u.Idx → α) (g : u.Idx → s.Idx)
    (hg : ∀ j, d.resultIdx? j idx = some (g j)) (r : s.Idx → α) (n : Fin u.numel) :
    (match d.resultIdx? (u.rowMajor.symm n) idx with
      | some i => fun i' => if i' = i then (fun (_ b : α) => b) (r i) (upd (u.rowMajor.symm n)) else r i'
      | none => r)
    = fun i' => if i' = g (u.rowMajor.symm n) then upd (u.rowMajor.symm n) else r i' := by
  rw [hg]

/-- Folding updates none of which lands on `i` leaves element `i` as it was. -/
theorem foldl_miss (d : ScatterDims s si u) (idx : IVec si w) (upd : u.Idx → α) (g : u.Idx → s.Idx)
    (hg : ∀ j, d.resultIdx? j idx = some (g j)) (i : s.Idx) :
    ∀ (l : List (Fin u.numel)) (x : s.Idx → α), (∀ n ∈ l, g (u.rowMajor.symm n) ≠ i) →
      (l.foldl (fun r n =>
        match d.resultIdx? (u.rowMajor.symm n) idx with
        | some i => fun i' => if i' = i then (fun (_ b : α) => b) (r i) (upd (u.rowMajor.symm n)) else r i'
        | none => r) x) i = x i := by
  intro l
  induction l with
  | nil => intro x _; rfl
  | cons a l ih =>
    intro x h
    rw [List.foldl_cons, ih _ (fun n hn => h n (List.mem_cons_of_mem _ hn)), step_eq d idx upd g hg]
    exact if_neg (fun e => h a List.mem_cons_self e.symm)

/-- Folding a duplicate-free list of updates, with an injective landing map: the element update `n0` lands on
    ends at that update. -/
theorem foldl_hit (d : ScatterDims s si u) (idx : IVec si w) (upd : u.Idx → α) (g : u.Idx → s.Idx)
    (hg : ∀ j, d.resultIdx? j idx = some (g j)) (hinj : Function.Injective g) (n0 : Fin u.numel) :
    ∀ (l : List (Fin u.numel)) (x : s.Idx → α), l.Nodup → n0 ∈ l →
      (l.foldl (fun r n =>
        match d.resultIdx? (u.rowMajor.symm n) idx with
        | some i => fun i' => if i' = i then (fun (_ b : α) => b) (r i) (upd (u.rowMajor.symm n)) else r i'
        | none => r) x) (g (u.rowMajor.symm n0)) = upd (u.rowMajor.symm n0) := by
  intro l
  induction l with
  | nil => intro x _ h; exact absurd h List.not_mem_nil
  | cons a l ih =>
    intro x hnd hmem
    rw [List.foldl_cons]
    rcases List.mem_cons.1 hmem with rfl | hm
    · rw [foldl_miss d idx upd g hg _ l _ (fun n hn e => (List.nodup_cons.1 hnd).1 (by
        have h2 : n = n0 := u.rowMajor.symm.injective (hinj e)
        rw [← h2]; exact hn)), step_eq d idx upd g hg]
      exact if_pos rfl
    · exact ih _ (List.nodup_cons.1 hnd).2 hm

/-- A set-scatter at the element update `j` lands on. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  have h := foldl_hit d idx upd g hg hinj (u.rowMajor j) (List.finRange u.numel) x (List.nodup_finRange _)
    (List.mem_finRange _)
  rw [Equiv.symm_apply_apply] at h
  exact h

/-- A set-scatter at an element no update lands on. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i :=
  foldl_miss d idx upd g hg i (List.finRange u.numel) x (fun n _ => hi _)

end Cert.LibScatterSet
-- ==== Proof.LibScatterBlock.lean ====
/-
  Two set-scatters (`x.at[:n].set(v)`) with every start index zero, read at one element.
  ROWS: an `[n, C]` update written over the first n rows of an `[R, C]` operand (both axes window axes, one start
  index naming axis 0): element (r, q) is the update's (r, q) when r < n, the operand's otherwise.
  LANES: an `[n]` update written over the first n lanes of a `[1, C]` operand (axis 0 inserted, a start pair naming
  both axes): element (0, k) is the update's k when k < n, the operand's otherwise.
-/
import proofs.«108682_g31224412242761_cont_9to1_2055_3_alg».proof.Proof.LibScatterSet
import Idealize.ShloMosaic.Lib.ValueIdx

namespace Cert.LibScatterBlock

open Idealize.ShloMosaic Idealize.ShloMosaic.ValueIdx

/-- With every start index zero, every window starts at 0 on every axis. -/
theorem start_zero {s si u : Shape} {w : Nat} (d : ScatterDims s si u) (idx : IVec si w)
    (hidx : ∀ i, (idx i).toInt = 0) (j : u.Idx) (a : Fin s.rank) : d.start j idx a = 0 := by
  unfold ScatterDims.start
  split
  · exact hidx _
  · rfl

section Rows

variable {R C n w : Nat} (d : ScatterDims ⟨2, ![R, C]⟩ ⟨1, ![1]⟩ ⟨2, ![n, C]⟩)
  (huw : d.updateWindowDims = [0, 1]) (hiw : d.insertedWindowDims = [])
  (idx : IVec ⟨1, ![1]⟩ w) (hidx : ∀ i, (idx i).toInt = 0) (hn : n ≤ R)

include huw hiw in
/-- The window coordinate on the row axis is the update's row. -/
theorem rows_window0 (e : Fin n) (q : Fin C) : d.window (ix2 e q) 0 = e.val := by
  obtain ⟨uw, iw, sd, iv, wf⟩ := d
  simp only at huw hiw
  subst huw hiw
  unfold ScatterDims.window
  exact (dif_pos (show (0 : Fin 2) ∈ (List.finRange 2).filter (· ∉ ([] : List (Fin 2))) by decide)).trans rfl

include huw hiw in
/-- The window coordinate on the column axis is the update's column. -/
theorem rows_window1 (e : Fin n) (q : Fin C) : d.window (ix2 e q) 1 = q.val := by
  obtain ⟨uw, iw, sd, iv, wf⟩ := d
  simp only at huw hiw
  subst huw hiw
  unfold ScatterDims.window
  exact (dif_pos (show (1 : Fin 2) ∈ (List.finRange 2).filter (· ∉ ([] : List (Fin 2))) by decide)).trans rfl

include huw hiw hidx hn in
/-- Update (e, q) lands at (e, q). -/
theorem rows_resultIdx (e : Fin n) (q : Fin C) :
    d.resultIdx? (ix2 e q) idx = some (ix2 (⟨e.val, Nat.lt_of_lt_of_le e.isLt hn⟩ : Fin R) q) := by
  have hs0 := start_zero d idx hidx (ix2 e q) 0
  have hs1 := start_zero d idx hidx (ix2 e q) 1
  have hw0 := rows_window0 d huw hiw e q
  have hw1 := rows_window1 d huw hiw e q
  unfold ScatterDims.resultIdx?
  have hall : ∀ a, 0 ≤ d.start (ix2 e q) idx a + d.window (ix2 e q) a
      ∧ d.start (ix2 e q) idx a + d.window (ix2 e q) a < (⟨2, ![R, C]⟩ : Shape).size a := by
    intro a
    match a with
    | ⟨0, _⟩ =>
      show 0 ≤ d.start (ix2 e q) idx 0 + d.window (ix2 e q) 0 ∧ d.start (ix2 e q) idx 0 + d.window (ix2 e q) 0 < (R : Int)
      rw [hs0, hw0]; have := e.isLt; omega
    | ⟨1, _⟩ =>
      show 0 ≤ d.start (ix2 e q) idx 1 + d.window (ix2 e q) 1 ∧ d.start (ix2 e q) idx 1 + d.window (ix2 e q) 1 < (C : Int)
      rw [hs1, hw1]; have := q.isLt; omega
  rw [dif_pos hall]
  congr 1
  funext a
  match a with
  | ⟨0, _⟩ =>
    apply Fin.ext
    show (d.start (ix2 e q) idx 0 + d.window (ix2 e q) 0).toNat = e.val
    rw [hs0, hw0]; omega
  | ⟨1, _⟩ =>
    apply Fin.ext
    show (d.start (ix2 e q) idx 1 + d.window (ix2 e q) 1).toNat = q.val
    rw [hs1, hw1]; omega

include huw hiw hidx hn in
/-- The set-scatter of rows at element (r, q). -/
theorem scatter_rows_apply {α : Type} (x : (⟨2, ![R, C]⟩ : Shape).Idx → α) (upd : (⟨2, ![n, C]⟩ : Shape).Idx → α)
    (r : Fin R) (q : Fin C) :
    Host.scatter d (fun _ b => b) x idx upd (ix2 r q)
      = if h : r.val < n then upd (ix2 (⟨r.val, h⟩ : Fin n) q) else x (ix2 r q) := by
  let g : (⟨2, ![n, C]⟩ : Shape).Idx → (⟨2, ![R, C]⟩ : Shape).Idx :=
    fun j => ix2 (⟨(j 0).val, Nat.lt_of_lt_of_le (j 0).isLt hn⟩ : Fin R) (⟨(j 1).val, (j 1).isLt⟩ : Fin C)
  have hg : ∀ j, d.resultIdx? j idx = some (g j) := by
    intro j
    obtain ⟨e, q', rfl⟩ : ∃ (e : Fin n) (q' : Fin C), j = ix2 e q' := ⟨j 0, j 1, eq_ix2 j⟩
    exact rows_resultIdx d huw hiw idx hidx hn e q'
  have hinj : Function.Injective g := by
    intro j j' hjj
    have h0 : (j 0).val = (j' 0).val := congrArg (fun f => (f 0).val) hjj
    have h1 : (j 1).val = (j' 1).val := congrArg (fun f => (f 1).val) hjj
    funext a
    match a with
    | ⟨0, _⟩ => exact Fin.ext h0
    | ⟨1, _⟩ => exact Fin.ext h1
  by_cases h : r.val < n
  · rw [dif_pos h]
    exact Cert.LibScatterSet.scatter_set_hit d x idx upd g hg hinj (ix2 (⟨r.val, h⟩ : Fin n) q)
  · rw [dif_neg h]
    refine Cert.LibScatterSet.scatter_set_miss d x idx upd g hg (ix2 r q) fun j hj => h ?_
    have h0 : (j 0).val = r.val := congrArg (fun f => (f 0).val) hj
    have hlt : (j 0).val < n := (j 0).isLt
    omega

end Rows

section Lanes

variable {C n w : Nat} (d : ScatterDims ⟨2, ![1, C]⟩ ⟨1, ![2]⟩ ⟨1, ![n]⟩)
  (huw : d.updateWindowDims = [0]) (hiw : d.insertedWindowDims = [0])
  (idx : IVec ⟨1, ![2]⟩ w) (hidx : ∀ i, (idx i).toInt = 0) (hn : n ≤ C)

include huw hiw in
/-- The window coordinate on the inserted unit axis is 0. -/
theorem lanes_window0 (e : Fin n) : d.window (ix1 e) 0 = 0 := by
  obtain ⟨uw, iw, sd, iv, wf⟩ := d
  simp only at huw hiw
  subst huw hiw
  unfold ScatterDims.window
  exact dif_neg (show (0 : Fin 2) ∉ (List.finRange 2).filter (· ∉ [(0 : Fin 2)]) by decide)

include huw hiw in
/-- The window coordinate on the lane axis is the update's index. -/
theorem lanes_window1 (e : Fin n) : d.window (ix1 e) 1 = e.val := by
  obtain ⟨uw, iw, sd, iv, wf⟩ := d
  simp only at huw hiw
  subst huw hiw
  unfold ScatterDims.window
  exact (dif_pos (show (1 : Fin 2) ∈ (List.finRange 2).filter (· ∉ [(0 : Fin 2)]) by decide)).trans rfl

include huw hiw hidx hn in
/-- Update e lands at (0, e). -/
theorem lanes_resultIdx (e : Fin n) :
    d.resultIdx? (ix1 e) idx = some (ix2 (0 : Fin 1) (⟨e.val, Nat.lt_of_lt_of_le e.isLt hn⟩ : Fin C)) := by
  have hs0 := start_zero d idx hidx (ix1 e) 0
  have hs1 := start_zero d idx hidx (ix1 e) 1
  have hw0 := lanes_window0 d huw hiw e
  have hw1 := lanes_window1 d huw hiw e
  unfold ScatterDims.resultIdx?
  have hall : ∀ a, 0 ≤ d.start (ix1 e) idx a + d.window (ix1 e) a
      ∧ d.start (ix1 e) idx a + d.window (ix1 e) a < (⟨2, ![1, C]⟩ : Shape).size a := by
    intro a
    match a with
    | ⟨0, _⟩ =>
      show 0 ≤ d.start (ix1 e) idx 0 + d.window (ix1 e) 0 ∧ d.start (ix1 e) idx 0 + d.window (ix1 e) 0 < (1 : Int)
      rw [hs0, hw0]; omega
    | ⟨1, _⟩ =>
      show 0 ≤ d.start (ix1 e) idx 1 + d.window (ix1 e) 1 ∧ d.start (ix1 e) idx 1 + d.window (ix1 e) 1 < (C : Int)
      rw [hs1, hw1]; have := e.isLt; omega
  rw [dif_pos hall]
  congr 1
  funext a
  match a with
  | ⟨0, _⟩ =>
    apply Fin.ext
    show (d.start (ix1 e) idx 0 + d.window (ix1 e) 0).toNat = 0
    rw [hs0, hw0]; rfl
  | ⟨1, _⟩ =>
    apply Fin.ext
    show (d.start (ix1 e) idx 1 + d.window (ix1 e) 1).toNat = e.val
    rw [hs1, hw1]; omega

include huw hiw hidx hn in
/-- The set-scatter of lanes at element (0, k). -/
theorem scatter_lanes_apply {α : Type} (x : (⟨2, ![1, C]⟩ : Shape).Idx → α) (upd : (⟨1, ![n]⟩ : Shape).Idx → α)
    (k : Fin C) :
    Host.scatter d (fun _ b => b) x idx upd (ix2 (0 : Fin 1) k)
      = if h : k.val < n then upd (ix1 (⟨k.val, h⟩ : Fin n)) else x (ix2 (0 : Fin 1) k) := by
  let g : (⟨1, ![n]⟩ : Shape).Idx → (⟨2, ![1, C]⟩ : Shape).Idx :=
    fun j => ix2 (0 : Fin 1) (⟨(j 0).val, Nat.lt_of_lt_of_le (j 0).isLt hn⟩ : Fin C)
  have hg : ∀ j, d.resultIdx? j idx = some (g j) := by
    intro j
    obtain ⟨e, rfl⟩ : ∃ (e : Fin n), j = ix1 e := ⟨j 0, eq_ix1 j⟩
    exact lanes_resultIdx d huw hiw idx hidx hn e
  have hinj : Function.Injective g := by
    intro j j' hjj
    have h1 : (j 0).val = (j' 0).val := congrArg (fun f => (f 1).val) hjj
    funext a
    match a with
    | ⟨0, _⟩ => exact Fin.ext h1
  by_cases h : k.val < n
  · rw [dif_pos h]
    exact Cert.LibScatterSet.scatter_set_hit d x idx upd g hg hinj (ix1 (⟨k.val, h⟩ : Fin n))
  · rw [dif_neg h]
    refine Cert.LibScatterSet.scatter_set_miss d x idx upd g hg (ix2 (0 : Fin 1) k) fun j hj => h ?_
    have h1 : (j 0).val = k.val := congrArg (fun f => (f 1).val) hj
    have hlt : (j 0).val < n := (j 0).isLt
    omega

end Lanes

end Cert.LibScatterBlock
-- ==== Proof.Spec.lean ====
/-
  The GRU memory update with a time encoding, as one function of the thirteen argument arrays over the extended
  reals, element by element.  For row r and hidden column j:
    tf r k   = cos ((ts r - mts r) * tw k + tb k)                                   (k < 100)
    gi r c   = (∑ k < 256, x r k * Wih c k) + (∑ k < 100, tf r k * Wih c (256 + k)) + bih c      (c < 768)
    gh r c   = (∑ k < 256, mem r k * Whh c k) + bhh c
    rg r j   = σ (gi r j + gh r j),   zg r j = σ (gi r (256+j) + gh r (256+j)),
    ng r j   = tanh (gi r (512+j) + rg r j * gh r (512+j))
    out r j  = ((1 - zg r j) * ng r j + zg r j * mem r j + ∑ k < 512, h r k * Wmap j k) + bmap j
  with σ x = 1 / (1 + e^(-x)).  The contraction of the concatenated input [x, tf] against Wih is written already
  split at column 256; `sum_split_356` is the law that splits it, and `sum_pad_128` the law that drops 28 padded
  lanes whose weights are zero.
-/
import Idealize.ShloMosaic.PureOps.Ideal
import Idealize.ShloMosaic.Lib.ValueIdx

noncomputable section

open scoped BigOperators

namespace Cert.Spec

open Idealize.ShloMosaic Idealize.ShloMosaic.ValueIdx

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul]; norm_num

/-- The expanded sigmoid `1 / (1 + e^(-x))`, its ones spelt as the word of `1.0`, is the logistic function. -/
theorem sigmoid_eq (x : EReal) :
    Ideal.div (Ideal.ofBits .f32 0x3F800000#32) (Ideal.ofBits .f32 0x3F800000#32 + Ideal.exp (-x)) = Ideal.logistic x := by
  rw [ofBits_one]; rfl

/-- A sum over 356 terms is the sum of its first 256 and of its last 100. -/
theorem sum_split_356 (f : Fin 356 → EReal) :
    ∑ k : Fin 356, f k
      = (∑ k : Fin 256, f ⟨k.val, by have := k.isLt; omega⟩) + ∑ k : Fin 100, f ⟨256 + k.val, by have := k.isLt; omega⟩ :=
  Fin.sum_univ_add (a := 256) (b := 100) f

/-- A sum over 128 terms whose last 28 vanish is the sum of its first 100. -/
theorem sum_pad_128 (f : Fin 128 → EReal) (h0 : ∀ k : Fin 28, f ⟨100 + k.val, by have := k.isLt; omega⟩ = 0) :
    ∑ k : Fin 128, f k = ∑ k : Fin 100, f ⟨k.val, by have := k.isLt; omega⟩ := by
  have h := Fin.sum_univ_add (a := 100) (b := 28) f
  have hz : ∑ i : Fin 28, f (Fin.natAdd 100 i) = 0 := Finset.sum_eq_zero (fun k _ => h0 k)
  rw [h, hz, add_zero]
  rfl

section
variable (x mem : (⟨2, ![10000, 256]⟩ : Shape).Idx → EReal) (ts mts : (⟨1, ![10000]⟩ : Shape).Idx → EReal)
  (hf : (⟨2, ![10000, 512]⟩ : Shape).Idx → EReal) (tw tb : (⟨1, ![100]⟩ : Shape).Idx → EReal)
  (Wih : (⟨2, ![768, 356]⟩ : Shape).Idx → EReal) (Whh : (⟨2, ![768, 256]⟩ : Shape).Idx → EReal)
  (bih bhh : (⟨1, ![768]⟩ : Shape).Idx → EReal) (Wmap : (⟨2, ![256, 512]⟩ : Shape).Idx → EReal)
  (bmap : (⟨1, ![256]⟩ : Shape).Idx → EReal)

/-- The time encoding of row r, feature k. -/
def timeFeat (r : Fin 10000) (k : Fin 100) : EReal :=
  Ideal.cos ((ts (ix1 r) - mts (ix1 r)) * tw (ix1 k) + tb (ix1 k))

/-- The input gates' pre-activation, the contraction split at column 256 of the input weights. -/
def gi (r : Fin 10000) (c : Fin 768) : EReal :=
  ((∑ k : Fin 256, x (ix2 r k) * Wih (ix2 c (⟨k.val, by have := k.isLt; omega⟩ : Fin 356)))
    + ∑ k : Fin 100, timeFeat ts mts tw tb r k * Wih (ix2 c (⟨256 + k.val, by have := k.isLt; omega⟩ : Fin 356)))
  + bih (ix1 c)

/-- The hidden gates' pre-activation. -/
def gh (r : Fin 10000) (c : Fin 768) : EReal :=
  (∑ k : Fin 256, mem (ix2 r k) * Whh (ix2 c k)) + bhh (ix1 c)

/-- Column j of the first, second and third 256-wide band of the 768 gate columns. -/
abbrev band0 (j : Fin 256) : Fin 768 := ⟨j.val, by have := j.isLt; omega⟩
abbrev band1 (j : Fin 256) : Fin 768 := ⟨256 + j.val, by have := j.isLt; omega⟩
abbrev band2 (j : Fin 256) : Fin 768 := ⟨512 + j.val, by have := j.isLt; omega⟩

/-- The reset gate. -/
def rg (r : Fin 10000) (j : Fin 256) : EReal :=
  Ideal.logistic (gi x ts mts tw tb Wih bih r (band0 j) + gh mem Whh bhh r (band0 j))

/-- The update gate. -/
def zg (r : Fin 10000) (j : Fin 256) : EReal :=
  Ideal.logistic (gi x ts mts tw tb Wih bih r (band1 j) + gh mem Whh bhh r (band1 j))

/-- The candidate state. -/
def ng (r : Fin 10000) (j : Fin 256) : EReal :=
  Ideal.tanh (gi x ts mts tw tb Wih bih r (band2 j)
    + rg x mem ts mts tw tb Wih Whh bih bhh r j * gh mem Whh bhh r (band2 j))

/-- The updated memory plus the mapped node feature: the result, element by element. -/
def out (i : (⟨2, ![10000, 256]⟩ : Shape).Idx) : EReal :=
  ((((Ideal.ofBits .f32 0x3F800000#32 - zg x mem ts mts tw tb Wih Whh bih bhh (i 0) (i 1))
        * ng x mem ts mts tw tb Wih Whh bih bhh (i 0) (i 1)
      + zg x mem ts mts tw tb Wih Whh bih bhh (i 0) (i 1) * mem (ix2 (i 0) (i 1)))
    + ∑ k : Fin 512, hf (ix2 (i 0) k) * Wmap (ix2 (i 1) k))
  + bmap (ix1 (i 1)))

end

end Cert.Spec

end
-- ==== Proof.HostWindows.lean ====
/-
  The arrays the kernel's windows stage, as the host operations before the call leave them, read at one element,
  in terms of the program's argument arrays:
    the two time columns        ts, mts reshaped [10000] → [10000, 1]:            (r, 0) ↦ ts r
    the padded time weights     zeros [1, 128] with (tw + 0) set over lanes < 100:  (0, k) ↦ tw k + 0 if k < 100, else 0
    the padded time biases      zeros [1, 128] with tb set over lanes < 100:        (0, k) ↦ tb k if k < 100, else 0
    w1  = (W_ih[:, :256])ᵀ:                                                        (k, c) ↦ W_ih c k
    w2  = zeros [128, 768] with (W_ih[:, 256:])ᵀ set over rows < 100:               (k, c) ↦ W_ih c (256 + k) if k < 100, else 0
    wh  = W_hhᵀ, wm = W_mapᵀ:                                                      (k, c) ↦ W c k
    the three bias rows         reshaped [n] → [1, n]:                             (0, c) ↦ b c
-/
import proofs.«108682_g31224412242761_cont_9to1_2055_3_alg».proof.Proof.Gen.KernelIdeal.Frame
import proofs.«108682_g31224412242761_cont_9to1_2055_3_alg».proof.Proof.LibScatterBlock
import proofs.«108682_g31224412242761_cont_9to1_2055_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Win

open Cert.KernelIdeal Cert.KernelIdeal.Gen Idealize.ShloMosaic Idealize.ShloMosaic.TcCoe Idealize.ShloMosaic.ValueIdx
open Idealize.SL.Sem Idealize.ShloMosaic.StableHlo

/-- An `[a]` array cast to `[a, 1]` reads, at `(r, u)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

variable (m : (ℓ : Loc nD τ sig) → Buf (Elt Ideal) ℓ)

/-! ## The argument arrays and the staged arrays, at their literal types -/

abbrev aX (c : Dev nD) : FVec Ideal S10000x256 .f32 := m ((c : Thread nD τ).loc main_arg0)
abbrev aMem (c : Dev nD) : FVec Ideal S10000x256 .f32 := m ((c : Thread nD τ).loc main_arg1)
abbrev aTs (c : Dev nD) : FVec Ideal S10000 .f32 := m ((c : Thread nD τ).loc main_arg2)
abbrev aMts (c : Dev nD) : FVec Ideal S10000 .f32 := m ((c : Thread nD τ).loc main_arg3)
abbrev aH (c : Dev nD) : FVec Ideal S10000x512 .f32 := m ((c : Thread nD τ).loc main_arg4)
abbrev aTw (c : Dev nD) : FVec Ideal S100 .f32 := m ((c : Thread nD τ).loc main_arg5)
abbrev aTb (c : Dev nD) : FVec Ideal S100 .f32 := m ((c : Thread nD τ).loc main_arg6)
abbrev aWih (c : Dev nD) : FVec Ideal S768x356 .f32 := m ((c : Thread nD τ).loc main_arg7)
abbrev aWhh (c : Dev nD) : FVec Ideal S768x256 .f32 := m ((c : Thread nD τ).loc main_arg8)
abbrev aBih (c : Dev nD) : FVec Ideal S768 .f32 := m ((c : Thread nD τ).loc main_arg9)
abbrev aBhh (c : Dev nD) : FVec Ideal S768 .f32 := m ((c : Thread nD τ).loc main_arg10)
abbrev aWmap (c : Dev nD) : FVec Ideal S256x512 .f32 := m ((c : Thread nD τ).loc main_arg11)
abbrev aBmap (c : Dev nD) : FVec Ideal S256 .f32 := m ((c : Thread nD τ).loc main_arg12)

abbrev vTs (c : Dev nD) : FVec Ideal S10000x1 .f32 := V m c main_call0_v21
abbrev vMts (c : Dev nD) : FVec Ideal S10000x1 .f32 := V m c main_call0_v22
abbrev vTb (c : Dev nD) : FVec Ideal S1x128 .f32 := V m c main_call0_v20
abbrev vTw (c : Dev nD) : FVec Ideal S1x128 .f32 := V m c main_call0_v15
abbrev vW1 (c : Dev nD) : FVec Ideal S256x768 .f32 := V m c main_call0_v1
abbrev vW2 (c : Dev nD) : FVec Ideal S128x768 .f32 := V m c main_call0_v6
abbrev vWh (c : Dev nD) : FVec Ideal S256x768 .f32 := V m c main_call0_v7
abbrev vWm (c : Dev nD) : FVec Ideal S512x256 .f32 := V m c main_call0_v8
abbrev vBih (c : Dev nD) : FVec Ideal S1x768 .f32 := V m c main_call0_v23
abbrev vBhh (c : Dev nD) : FVec Ideal S1x768 .f32 := V m c main_call0_v24
abbrev vBmap (c : Dev nD) : FVec Ideal S1x256 .f32 := V m c main_call0_v25

/-! ## Transport along a buffer's type equation is the identity

A value passes into and out of a buffer through the buffer's type equation; at a literal buffer the two types are one,
so both transports are the identity.  Stated for any value, so that no scatter is opened to see it. -/

theorem ofBuf_toBuf {T : BufTy} (x : TRef sig T) (v : T.Contents (Elt Ideal)) : x.ofBuf (x.toBuf v) = v := by
  obtain ⟨r, h, a, b⟩ := x
  subst h
  rfl

theorem toBuf_v6 (W : FVec Ideal S128x768 .f32) :
    (TRef.of main_call0_v6 : TRef sig ⟨S128x768, .f32⟩).toBuf (Val := Elt Ideal) W = W := eq_of_heq (cast_heq _ _)

theorem toBuf_v15 (W : FVec Ideal S1x128 .f32) :
    (TRef.of main_call0_v15 : TRef sig ⟨S1x128, .f32⟩).toBuf (Val := Elt Ideal) W = W := eq_of_heq (cast_heq _ _)

theorem toBuf_v20 (W : FVec Ideal S1x128 .f32) :
    (TRef.of main_call0_v20 : TRef sig ⟨S1x128, .f32⟩).toBuf (Val := Elt Ideal) W = W := eq_of_heq (cast_heq _ _)

theorem ofBuf_arg7 (c : Dev nD) :
    (TRef.of main_arg7 : TRef sig ⟨S768x356, .f32⟩).ofBuf (Val := Elt Ideal) (m (c, Proc.tc.devRef main_arg7)) = aWih m c :=
  eq_of_heq (cast_heq _ _)

theorem ofBuf_arg5 (c : Dev nD) :
    (TRef.of main_arg5 : TRef sig ⟨S100, .f32⟩).ofBuf (Val := Elt Ideal) (m (c, Proc.tc.devRef main_arg5)) = aTw m c :=
  eq_of_heq (cast_heq _ _)

theorem ofBuf_arg6 (c : Dev nD) :
    (TRef.of main_arg6 : TRef sig ⟨S100, .f32⟩).ofBuf (Val := Elt Ideal) (m (c, Proc.tc.devRef main_arg6)) = aTb m c :=
  eq_of_heq (cast_heq _ _)

/-! ## Each staged array as the host operations' term -/

theorem vTs_eq (c : Dev nD) : vTs m c = shapeCast S10000x1 (aTs m c) shapeCasts_S10000_S10000x1 := by
  dsimp only [vTs, aTs, V, hostOps0]; after_results; rfl

theorem vMts_eq (c : Dev nD) : vMts m c = shapeCast S10000x1 (aMts m c) shapeCasts_S10000_S10000x1 := by
  dsimp only [vMts, aMts, V, hostOps0]; after_results; rfl

theorem vBih_eq (c : Dev nD) : vBih m c = shapeCast S1x768 (aBih m c) shapeCasts_S768_S1x768 := by
  dsimp only [vBih, aBih, V, hostOps0]; after_results; rfl

theorem vBhh_eq (c : Dev nD) : vBhh m c = shapeCast S1x768 (aBhh m c) shapeCasts_S768_S1x768 := by
  dsimp only [vBhh, aBhh, V, hostOps0]; after_results; rfl

theorem vBmap_eq (c : Dev nD) : vBmap m c = shapeCast S1x256 (aBmap m c) shapeCasts_S256_S1x256 := by
  dsimp only [vBmap, aBmap, V, hostOps0]; after_results; rfl

theorem vW1_eq (c : Dev nD) : vW1 m c = transpose S256x768 [1, 0]
    (extractStridedSlice S768x256 ![0, 0] (aWih m c) slices_S768x356_S768x256_0_0) transposes_S768x256_S256x768_1_0 := by
  dsimp only [vW1, aWih, V, hostOps0]; after_results; rfl

theorem vWh_eq (c : Dev nD) : vWh m c = transpose S256x768 [1, 0] (aWhh m c) transposes_S768x256_S256x768_1_0 := by
  dsimp only [vWh, aWhh, V, hostOps0]; after_results; rfl

theorem vWm_eq (c : Dev nD) : vWm m c = transpose S512x256 [1, 0] (aWmap m c) transposes_S256x512_S512x256_1_0 := by
  dsimp only [vWm, aWmap, V, hostOps0]; after_results; rfl

/-- The start index of the row scatter, and each half of the lane scatters' start pair: the zero word. -/
abbrev zeroIdx1 : IVec S1 32 := broadcastInDim S1 ![] bcast_S_S1 (constantI S_ 32 0#32)
abbrev zeroIdx2 : IVec S2 32 := concatenate S2 0 [⟨S1, zeroIdx1⟩, ⟨S1, zeroIdx1⟩] concatenates_S1_S1_S2_d0

theorem vW2_eq (c : Dev nD) : vW2 m c = Host.scatter scatter_S128x768_S1_S100x768_01_n_0_0 (fun _ b => b)
    (broadcastInDim S128x768 ![] bcast_S_S128x768 (constant (F := Ideal) S_ .f32 0x00000000#32)) zeroIdx1
    (transpose S100x768 [1, 0] (extractStridedSlice S768x100 ![0, 256] (aWih m c) slices_S768x356_S768x100_0_256)
      transposes_S768x100_S100x768_1_0) := by
  dsimp only [vW2, V, hostOps0]; after_results
  simp only [ofBuf_toBuf]
  rw [toBuf_v6, ofBuf_arg7]

theorem vTw_eq (c : Dev nD) : vTw m c = Host.scatter scatter_S1x128_S2_S100_0_0_01_0 (fun _ b => b)
    (broadcastInDim S1x128 ![] bcast_S_S1x128 (constant (F := Ideal) S_ .f32 0x00000000#32)) zeroIdx2
    (addf (aTw m c) (broadcastInDim S100 ![] bcast_S_S100 (constant (F := Ideal) S_ .f32 0x00000000#32))) := by
  dsimp only [vTw, V, hostOps0]; after_results
  simp only [ofBuf_toBuf]
  rw [toBuf_v15, ofBuf_arg5]
  rfl

theorem vTb_eq (c : Dev nD) : vTb m c = Host.scatter scatter_S1x128_S2_S100_0_0_01_0 (fun _ b => b)
    (broadcastInDim S1x128 ![] bcast_S_S1x128 (constant (F := Ideal) S_ .f32 0x00000000#32)) zeroIdx2 (aTb m c) := by
  dsimp only [vTb, V, hostOps0]; after_results
  simp only [ofBuf_toBuf]
  rw [toBuf_v20, ofBuf_arg6]
  rfl

/-! ## Read at one element -/

theorem vTs_apply (c : Dev nD) (r : Fin 10000) : vTs m c (ix2 r (0 : Fin 1)) = aTs m c (ix1 r) := by
  rw [vTs_eq]; exact shapeCast_a_a1_apply _ _ r 0

theorem vMts_apply (c : Dev nD) (r : Fin 10000) : vMts m c (ix2 r (0 : Fin 1)) = aMts m c (ix1 r) := by
  rw [vMts_eq]; exact shapeCast_a_a1_apply _ _ r 0

theorem vBih_apply (c : Dev nD) (j : Fin 768) : vBih m c (ix2 (0 : Fin 1) j) = aBih m c (ix1 j) := by
  rw [vBih_eq]; exact shapeCast_a_1a_apply _ _ 0 j

theorem vBhh_apply (c : Dev nD) (j : Fin 768) : vBhh m c (ix2 (0 : Fin 1) j) = aBhh m c (ix1 j) := by
  rw [vBhh_eq]; exact shapeCast_a_1a_apply _ _ 0 j

theorem vBmap_apply (c : Dev nD) (j : Fin 256) : vBmap m c (ix2 (0 : Fin 1) j) = aBmap m c (ix1 j) := by
  rw [vBmap_eq]; exact shapeCast_a_1a_apply _ _ 0 j

theorem vW1_apply (c : Dev nD) (k : Fin 256) (j : Fin 768) :
    vW1 m c (ix2 k j) = aWih m c (ix2 j (⟨k.val, by have := k.isLt; omega⟩ : Fin 356)) := by
  rw [vW1_eq, transpose_ix2_apply]
  exact slice2_axis1_apply 0 (aWih m c) _ j k _ (Nat.zero_add _).symm

theorem vWh_apply (c : Dev nD) (k : Fin 256) (j : Fin 768) : vWh m c (ix2 k j) = aWhh m c (ix2 j k) := by
  rw [vWh_eq]; exact transpose_ix2_apply _ _ k j

theorem vWm_apply (c : Dev nD) (k : Fin 512) (j : Fin 256) : vWm m c (ix2 k j) = aWmap m c (ix2 j k) := by
  rw [vWm_eq]; exact transpose_ix2_apply _ _ k j

theorem zeroIdx1_toInt (i : S1.Idx) : (zeroIdx1 i).toInt = 0 := rfl

theorem zeroIdx2_eq : ∀ i : S2.Idx, zeroIdx2 i = 0#32 := by decide

theorem zeroIdx2_toInt (i : S2.Idx) : (zeroIdx2 i).toInt = 0 := by rw [zeroIdx2_eq]; rfl

theorem vW2_apply (c : Dev nD) (k : Fin 128) (j : Fin 768) :
    vW2 m c (ix2 k j) = if h : k.val < 100 then aWih m c (ix2 j (⟨256 + k.val, by omega⟩ : Fin 356)) else 0 := by
  rw [vW2_eq, Cert.LibScatterBlock.scatter_rows_apply scatter_S128x768_S1_S100x768_01_n_0_0 rfl rfl zeroIdx1
    zeroIdx1_toInt (by decide : 100 ≤ 128)]
  by_cases h : k.val < 100
  · rw [dif_pos h, dif_pos h, transpose_ix2_apply]
    exact slice2_axis1_apply 256 (aWih m c) _ j ⟨k.val, h⟩ _ rfl
  · rw [dif_neg h, dif_neg h]
    exact Cert.Spec.ofBits_zero

theorem vTw_apply (c : Dev nD) (k : Fin 128) :
    vTw m c (ix2 (0 : Fin 1) k) = if h : k.val < 100 then aTw m c (ix1 (⟨k.val, h⟩ : Fin 100)) + 0 else 0 := by
  rw [vTw_eq, Cert.LibScatterBlock.scatter_lanes_apply scatter_S1x128_S2_S100_0_0_01_0 rfl rfl zeroIdx2
    zeroIdx2_toInt (by decide : 100 ≤ 128)]
  by_cases h : k.val < 100
  · rw [dif_pos h, dif_pos h]
    show aTw m c (ix1 (⟨k.val, h⟩ : Fin 100)) + Ideal.ofBits .f32 0x00000000#32 = _
    rw [Cert.Spec.ofBits_zero]
  · rw [dif_neg h, dif_neg h]
    exact Cert.Spec.ofBits_zero

theorem vTb_apply (c : Dev nD) (k : Fin 128) :
    vTb m c (ix2 (0 : Fin 1) k) = if h : k.val < 100 then aTb m c (ix1 (⟨k.val, h⟩ : Fin 100)) else 0 := by
  rw [vTb_eq, Cert.LibScatterBlock.scatter_lanes_apply scatter_S1x128_S2_S100_0_0_01_0 rfl rfl zeroIdx2
    zeroIdx2_toInt (by decide : 100 ≤ 128)]
  by_cases h : k.val < 100
  · rw [dif_pos h, dif_pos h]
  · rw [dif_neg h, dif_neg h]
    exact Cert.Spec.ofBits_zero

end Cert.KernelIdeal.Win

end
-- ==== Proof.Payload.lean ====
/-
  The kernel body's arithmetic at one element of its output block.  Over the fourteen input blocks of a grid point
  (2000 rows of ts, mts, x, mem, h; the padded 128-wide time weights and biases; the transposed weight matrices; the
  bias rows), the stored value at row p, column q is
    ((1 - z) * n + z * mem p q + ∑ k < 512, h p k * wm k q) + bmap q
  with the gates read off the two 768-wide pre-activations
    gi p c = (∑ k < 256, x p k * w1 k c + ∑ k < 128, cos ((ts p - mts p) * tw k + tb k) * w2 k c) + bih c,
    gh p c = (∑ k < 256, mem p k * wh k c) + bhh c.
  Each matrix product into a zero accumulator is the plain sum over the contracted axis; a slice of the 768 columns
  reads its band; a row or column broadcast reads its one row or column.
-/
import proofs.«108682_g31224412242761_cont_9to1_2055_3_alg».proof.Proof.Gen.KernelIdeal.Skeleton
import proofs.«108682_g31224412242761_cont_9to1_2055_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Spec

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product `[M, K] × [K, N]` into a zero accumulator, at `(p, c)`: the sum over `k` of the products of the
    left operand's row `p` and the right operand's column `c`. -/
theorem matmul_plain_apply {M K N : ℕ} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (lhs : FVec Ideal ⟨2, ![M, K]⟩ .f32) (rhs : FVec Ideal ⟨2, ![K, N]⟩ .f32) (p : Fin M) (c : Fin N) :
    FloatOps.matmul d none lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-! The three contractions of the body: which operand coordinate each output and contraction coordinate feeds. -/

theorem d1_l0 (i : _) (q : dot_S2000x256_S256x768_S2000x768_1_0_0_1_n_n.contr.Idx) : (dot_S2000x256_S256x768_S2000x768_1_0_0_1_n_n.lhsIdx i q 0).val = (i 0).val := by
  unfold DotDims.lhsIdx
  rw [dif_neg (show ¬(0 : Fin S2000x256.rank) ∈ dot_S2000x256_S256x768_S2000x768_1_0_0_1_n_n.lhsBatch by decide), dif_pos (show (0 : Fin S2000x256.rank) ∈ dot_S2000x256_S256x768_S2000x768_1_0_0_1_n_n.lhsNonContracting by decide)]
  rfl
theorem d1_l1 (i : _) (q : dot_S2000x256_S256x768_S2000x768_1_0_0_1_n_n.contr.Idx) : (dot_S2000x256_S256x768_S2000x768_1_0_0_1_n_n.lhsIdx i q 1).val = (q ⟨0, by decide⟩).val :=
  dot_S2000x256_S256x768_S2000x768_1_0_0_1_n_n.lhsIdx_val_of_single rfl i q
theorem d1_r0 (i : _) (q : dot_S2000x256_S256x768_S2000x768_1_0_0_1_n_n.contr.Idx) : (dot_S2000x256_S256x768_S2000x768_1_0_0_1_n_n.rhsIdx i q 0).val = (q ⟨0, by decide⟩).val :=
  dot_S2000x256_S256x768_S2000x768_1_0_0_1_n_n.rhsIdx_val_of_single rfl i q
theorem d1_r1 (i : _) (q : dot_S2000x256_S256x768_S2000x768_1_0_0_1_n_n.contr.Idx) : (dot_S2000x256_S256x768_S2000x768_1_0_0_1_n_n.rhsIdx i q 1).val = (i 1).val := by
  unfold DotDims.rhsIdx
  rw [dif_neg (show ¬(1 : Fin S256x768.rank) ∈ dot_S2000x256_S256x768_S2000x768_1_0_0_1_n_n.rhsBatch by decide), dif_pos (show (1 : Fin S256x768.rank) ∈ dot_S2000x256_S256x768_S2000x768_1_0_0_1_n_n.rhsNonContracting by decide)]
  rfl

theorem d2_l0 (i : _) (q : dot_S2000x128_S128x768_S2000x768_1_0_0_1_n_n.contr.Idx) : (dot_S2000x128_S128x768_S2000x768_1_0_0_1_n_n.lhsIdx i q 0).val = (i 0).val := by
  unfold DotDims.lhsIdx
  rw [dif_neg (show ¬(0 : Fin S2000x128.rank) ∈ dot_S2000x128_S128x768_S2000x768_1_0_0_1_n_n.lhsBatch by decide), dif_pos (show (0 : Fin S2000x128.rank) ∈ dot_S2000x128_S128x768_S2000x768_1_0_0_1_n_n.lhsNonContracting by decide)]
  rfl
theorem d2_l1 (i : _) (q : dot_S2000x128_S128x768_S2000x768_1_0_0_1_n_n.contr.Idx) : (dot_S2000x128_S128x768_S2000x768_1_0_0_1_n_n.lhsIdx i q 1).val = (q ⟨0, by decide⟩).val :=
  dot_S2000x128_S128x768_S2000x768_1_0_0_1_n_n.lhsIdx_val_of_single rfl i q
theorem d2_r0 (i : _) (q : dot_S2000x128_S128x768_S2000x768_1_0_0_1_n_n.contr.Idx) : (dot_S2000x128_S128x768_S2000x768_1_0_0_1_n_n.rhsIdx i q 0).val = (q ⟨0, by decide⟩).val :=
  dot_S2000x128_S128x768_S2000x768_1_0_0_1_n_n.rhsIdx_val_of_single rfl i q
theorem d2_r1 (i : _) (q : dot_S2000x128_S128x768_S2000x768_1_0_0_1_n_n.contr.Idx) : (dot_S2000x128_S128x768_S2000x768_1_0_0_1_n_n.rhsIdx i q 1).val = (i 1).val := by
  unfold DotDims.rhsIdx
  rw [dif_neg (show ¬(1 : Fin S128x768.rank) ∈ dot_S2000x128_S128x768_S2000x768_1_0_0_1_n_n.rhsBatch by decide), dif_pos (show (1 : Fin S128x768.rank) ∈ dot_S2000x128_S128x768_S2000x768_1_0_0_1_n_n.rhsNonContracting by decide)]
  rfl

theorem d3_l0 (i : _) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem d3_l1 (i : _) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem d3_r0 (i : _) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem d3_r1 (i : _) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem mm1 (lhs : FVec Ideal S2000x256 .f32) (rhs : FVec Ideal S256x768 .f32) (p : Fin 2000) (c : Fin 768) :
    FloatOps.matmul dot_S2000x256_S256x768_S2000x768_1_0_0_1_n_n none lhs rhs (constant S2000x768 .f32 0x00000000#32) (ix2 p c)
      = ∑ k : Fin 256, lhs (ix2 p k) * rhs (ix2 k c) :=
  matmul_plain_apply dot_S2000x256_S256x768_S2000x768_1_0_0_1_n_n rfl rfl d1_l0 d1_l1 d1_r0 d1_r1 lhs rhs p c

theorem mm2 (lhs : FVec Ideal S2000x128 .f32) (rhs : FVec Ideal S128x768 .f32) (p : Fin 2000) (c : Fin 768) :
    FloatOps.matmul dot_S2000x128_S128x768_S2000x768_1_0_0_1_n_n none lhs rhs (constant S2000x768 .f32 0x00000000#32) (ix2 p c)
      = ∑ k : Fin 128, lhs (ix2 p k) * rhs (ix2 k c) :=
  matmul_plain_apply dot_S2000x128_S128x768_S2000x768_1_0_0_1_n_n rfl rfl d2_l0 d2_l1 d2_r0 d2_r1 lhs rhs p c

theorem mm3 (lhs : FVec Ideal S2000x512 .f32) (rhs : FVec Ideal S512x256 .f32) (p : Fin 2000) (c : Fin 256) :
    FloatOps.matmul dot_S2000x512_S512x256_S2000x256_1_0_0_1_n_n none lhs rhs (constant S2000x256 .f32 0x00000000#32) (ix2 p c)
      = ∑ k : Fin 512, lhs (ix2 p k) * rhs (ix2 k c) :=
  matmul_plain_apply dot_S2000x512_S512x256_S2000x256_1_0_0_1_n_n rfl rfl d3_l0 d3_l1 d3_r0 d3_r1 lhs rhs p c

/-! ## The body's value over the blocks of one grid point -/

section
variable (x0 x1 : FVec Ideal S2000x1 .f32) (x2 : FVec Ideal S1x128 .f32) (x3 x4 : FVec Ideal S2000x256 .f32)
  (x5 : FVec Ideal S2000x512 .f32) (x6 : FVec Ideal S1x128 .f32) (x7 : FVec Ideal S256x768 .f32)
  (x8 : FVec Ideal S128x768 .f32) (x9 : FVec Ideal S256x768 .f32) (x10 : FVec Ideal S512x256 .f32)
  (x11 x12 : FVec Ideal S1x768 .f32) (x13 : FVec Ideal S1x256 .f32)

/-- The padded time encoding of block row p, lane k. -/
def btf (p : Fin 2000) (k : Fin 128) : EReal :=
  Ideal.cos ((x0 (ix2 p (0 : Fin 1)) - x1 (ix2 p (0 : Fin 1))) * x6 (ix2 (0 : Fin 1) k) + x2 (ix2 (0 : Fin 1) k))

/-- The input gates' pre-activation over the blocks. -/
def bgi (p : Fin 2000) (c : Fin 768) : EReal :=
  ((∑ k : Fin 256, x3 (ix2 p k) * x7 (ix2 k c)) + ∑ k : Fin 128, btf x0 x1 x2 x6 p k * x8 (ix2 k c))
    + x11 (ix2 (0 : Fin 1) c)

/-- The hidden gates' pre-activation over the blocks. -/
def bgh (p : Fin 2000) (c : Fin 768) : EReal :=
  (∑ k : Fin 256, x4 (ix2 p k) * x9 (ix2 k c)) + x12 (ix2 (0 : Fin 1) c)

def brg (p : Fin 2000) (q : Fin 256) : EReal :=
  Ideal.logistic (bgi x0 x1 x2 x3 x6 x7 x8 x11 p (band0 q) + bgh x4 x9 x12 p (band0 q))

def bzg (p : Fin 2000) (q : Fin 256) : EReal :=
  Ideal.logistic (bgi x0 x1 x2 x3 x6 x7 x8 x11 p (band1 q) + bgh x4 x9 x12 p (band1 q))

def bng (p : Fin 2000) (q : Fin 256) : EReal :=
  Ideal.tanh (bgi x0 x1 x2 x3 x6 x7 x8 x11 p (band2 q)
    + brg x0 x1 x2 x3 x4 x6 x7 x8 x9 x11 x12 p q * bgh x4 x9 x12 p (band2 q))

/-- The stored value at block row p, column q. -/
def bout (p : Fin 2000) (q : Fin 256) : EReal :=
  ((((Ideal.ofBits .f32 0x3F800000#32 - bzg x0 x1 x2 x3 x4 x6 x7 x8 x9 x11 x12 p q)
        * bng x0 x1 x2 x3 x4 x6 x7 x8 x9 x11 x12 p q
      + bzg x0 x1 x2 x3 x4 x6 x7 x8 x9 x11 x12 p q * x4 (ix2 p q))
    + ∑ k : Fin 512, x5 (ix2 p k) * x10 (ix2 k q))
  + x13 (ix2 (0 : Fin 1) q))

/-- The input pre-activation the body computes, at (p, c). -/
theorem pay2_apply (p : Fin 2000) (c : Fin 768) :
    k0_pay2 (F := Ideal) x0 x1 x6 x2 x3 x7 x8 x11 (ix2 p c) = bgi x0 x1 x2 x3 x6 x7 x8 x11 p c := by
  unfold k0_pay2 bgi
  simp only [shapeCast_self]
  show (FloatOps.matmul dot_S2000x256_S256x768_S2000x768_1_0_0_1_n_n none x3 x7 (constant S2000x768 .f32 0x00000000#32) (ix2 p c)
        + FloatOps.matmul dot_S2000x128_S128x768_S2000x768_1_0_0_1_n_n none
            (cos (addf (mulf (broadcastTo S2000x128 (subf x0 x1) broadcasts_S2000x1_S2000x128)
              (broadcastTo S2000x128 x6 broadcasts_S1x128_S2000x128)) (broadcastTo S2000x128 x2 broadcasts_S1x128_S2000x128)))
            x8 (constant S2000x768 .f32 0x00000000#32) (ix2 p c))
      + broadcastTo S2000x768 x11 broadcasts_S1x768_S2000x768 (ix2 p c) = _
  rw [mm1, mm2, broadcastTo_1b_ab_apply]
  refine congrArg (· + x11 (ix2 (0 : Fin 1) c)) (congrArg ((∑ k : Fin 256, x3 (ix2 p k) * x7 (ix2 k c)) + ·) ?_)
  refine Finset.sum_congr rfl fun k _ => ?_
  refine congrArg (· * x8 (ix2 k c)) ?_
  show Ideal.cos (broadcastTo S2000x128 (subf x0 x1) broadcasts_S2000x1_S2000x128 (ix2 p k)
      * broadcastTo S2000x128 x6 broadcasts_S1x128_S2000x128 (ix2 p k)
      + broadcastTo S2000x128 x2 broadcasts_S1x128_S2000x128 (ix2 p k)) = _
  rw [broadcastTo_a1_ab_apply, broadcastTo_1b_ab_apply, broadcastTo_1b_ab_apply]
  rfl

/-- The hidden product the body computes, at (p, c). -/
theorem pay3_apply (p : Fin 2000) (c : Fin 768) :
    k0_pay3 (F := Ideal) x4 x9 (ix2 p c) = ∑ k : Fin 256, x4 (ix2 p k) * x9 (ix2 k c) := by
  unfold k0_pay3
  simp only [shapeCast_self]
  exact mm1 x4 x9 p c

/-- The hidden bias row broadcast over the block, at (p, c). -/
theorem pay4_apply (p : Fin 2000) (c : Fin 768) :
    k0_pay4 (F := Ideal) x12 (ix2 p c) = x12 (ix2 (0 : Fin 1) c) := by
  unfold k0_pay4
  simp only [shapeCast_self]
  exact broadcastTo_1b_ab_apply x12 _ p c

end

section
variable (v16 : FVec Ideal S2000x256 .f32) (v27 v30 v33 : FVec Ideal S2000x768 .f32) (v53 : FVec Ideal S2000x512 .f32)
  (v54 : FVec Ideal S512x256 .f32) (v58 : FVec Ideal S1x256 .f32)

/-- The stored value from the two pre-activations (the hidden one still as product plus bias row), at (p, q): the
    three 256-wide slices read the three bands of the 768 columns. -/
theorem pay1_apply (p : Fin 2000) (q : Fin 256) :
    k0_pay1 (F := Ideal) v16 v27 v30 v33 v53 v54 v58 (ix2 p q)
      = ((((Ideal.ofBits .f32 0x3F800000#32
              - Ideal.logistic (v27 (ix2 p (band1 q)) + (v30 (ix2 p (band1 q)) + v33 (ix2 p (band1 q)))))
            * Ideal.tanh (v27 (ix2 p (band2 q))
                + Ideal.logistic (v27 (ix2 p (band0 q)) + (v30 (ix2 p (band0 q)) + v33 (ix2 p (band0 q))))
                  * (v30 (ix2 p (band2 q)) + v33 (ix2 p (band2 q))))
          + Ideal.logistic (v27 (ix2 p (band1 q)) + (v30 (ix2 p (band1 q)) + v33 (ix2 p (band1 q)))) * v16 (ix2 p q))
        + ∑ k : Fin 512, v53 (ix2 p k) * v54 (ix2 k q))
      + v58 (ix2 (0 : Fin 1) q)) := by
  have a0 : extractStridedSlice S2000x256 ![0, 0] v27 slices_S2000x768_o0_0_S2000x256 (ix2 p q) = v27 (ix2 p (band0 q)) :=
    slice2_axis1_apply 0 v27 _ p q (band0 q) (Nat.zero_add _).symm
  have b0 : extractStridedSlice S2000x256 ![0, 0] (addf v30 v33) slices_S2000x768_o0_0_S2000x256 (ix2 p q)
      = addf v30 v33 (ix2 p (band0 q)) :=
    slice2_axis1_apply 0 (addf v30 v33) _ p q (band0 q) (Nat.zero_add _).symm
  have a1 : extractStridedSlice S2000x256 ![0, 256] v27 slices_S2000x768_o0_256_S2000x256 (ix2 p q) = v27 (ix2 p (band1 q)) :=
    slice2_axis1_apply 256 v27 _ p q (band1 q) rfl
  have b1 : extractStridedSlice S2000x256 ![0, 256] (addf v30 v33) slices_S2000x768_o0_256_S2000x256 (ix2 p q)
      = addf v30 v33 (ix2 p (band1 q)) :=
    slice2_axis1_apply 256 (addf v30 v33) _ p q (band1 q) rfl
  have a2 : extractStridedSlice S2000x256 ![0, 512] v27 slices_S2000x768_o0_512_S2000x256 (ix2 p q) = v27 (ix2 p (band2 q)) :=
    slice2_axis1_apply 512 v27 _ p q (band2 q) rfl
  have b2 : extractStridedSlice S2000x256 ![0, 512] (addf v30 v33) slices_S2000x768_o0_512_S2000x256 (ix2 p q)
      = addf v30 v33 (ix2 p (band2 q)) :=
    slice2_axis1_apply 512 (addf v30 v33) _ p q (band2 q) rfl
  unfold k0_pay1
  simp only [shapeCast_self]
  show ((((Ideal.ofBits .f32 0x3F800000#32
              - Ideal.logistic (extractStridedSlice S2000x256 ![0, 256] v27 slices_S2000x768_o0_256_S2000x256 (ix2 p q)
                  + extractStridedSlice S2000x256 ![0, 256] (addf v30 v33) slices_S2000x768_o0_256_S2000x256 (ix2 p q)))
            * Ideal.tanh (extractStridedSlice S2000x256 ![0, 512] v27 slices_S2000x768_o0_512_S2000x256 (ix2 p q)
                + Ideal.logistic (extractStridedSlice S2000x256 ![0, 0] v27 slices_S2000x768_o0_0_S2000x256 (ix2 p q)
                    + extractStridedSlice S2000x256 ![0, 0] (addf v30 v33) slices_S2000x768_o0_0_S2000x256 (ix2 p q))
                  * extractStridedSlice S2000x256 ![0, 512] (addf v30 v33) slices_S2000x768_o0_512_S2000x256 (ix2 p q))
          + Ideal.logistic (extractStridedSlice S2000x256 ![0, 256] v27 slices_S2000x768_o0_256_S2000x256 (ix2 p q)
                  + extractStridedSlice S2000x256 ![0, 256] (addf v30 v33) slices_S2000x768_o0_256_S2000x256 (ix2 p q))
              * v16 (ix2 p q))
        + FloatOps.matmul dot_S2000x512_S512x256_S2000x256_1_0_0_1_n_n none v53 v54 (constant S2000x256 .f32 0x00000000#32) (ix2 p q))
      + broadcastTo S2000x256 v58 broadcasts_S1x256_S2000x256 (ix2 p q)) = _
  rw [a0, b0, a1, b1, a2, b2, mm3, broadcastTo_1b_ab_apply]
  rfl

end

end Cert.KernelIdeal.Pay

end
-- ==== Proof.Bridge.lean ====
/-
  From one grid point's blocks to the whole arrays.  Grid point t stages rows [2000 t, 2000 t + 2000) of ts, mts, x,
  mem and h, and the whole of the weight and bias arrays; the padded time weights and biases and the padded second
  weight matrix carry their array over lanes (rows) below 100 and zeros above.  Under those readings of the blocks
  the body's value at block row p, column q is the specification at row 2000 t + p, column q: the 128-lane
  contraction drops its 28 padded lanes (their weights are zero), `tw + 0` is `tw`, and every other term is the same.
-/
import proofs.«108682_g31224412242761_cont_9to1_2055_3_alg».proof.Proof.Payload
import proofs.«108682_g31224412242761_cont_9to1_2055_3_alg».proof.Proof.Spec

noncomputable section

open scoped BigOperators

namespace Cert.KernelIdeal.Bridge

open Cert.KernelIdeal Idealize.ShloMosaic Idealize.ShloMosaic.ValueIdx Cert.KernelIdeal.Pay Cert.Spec

/-- Row p of grid point t's block is row 2000 t + p of the array. -/
abbrev row (t : ℕ) (ht : t < 5) (p : Fin 2000) : Fin 10000 := ⟨2000 * t + p.val, by have := p.isLt; omega⟩

variable (x0 x1 : FVec Ideal S2000x1 .f32) (x2 : FVec Ideal S1x128 .f32) (x3 x4 : FVec Ideal S2000x256 .f32)
  (x5 : FVec Ideal S2000x512 .f32) (x6 : FVec Ideal S1x128 .f32) (x7 : FVec Ideal S256x768 .f32)
  (x8 : FVec Ideal S128x768 .f32) (x9 : FVec Ideal S256x768 .f32) (x10 : FVec Ideal S512x256 .f32)
  (x11 x12 : FVec Ideal S1x768 .f32) (x13 : FVec Ideal S1x256 .f32)
  (aX aMem : FVec Ideal S10000x256 .f32) (aTs aMts : FVec Ideal S10000 .f32) (aH : FVec Ideal S10000x512 .f32)
  (aTw aTb : FVec Ideal S100 .f32) (aWih : FVec Ideal S768x356 .f32) (aWhh : FVec Ideal S768x256 .f32)
  (aBih aBhh : FVec Ideal S768 .f32) (aWmap : FVec Ideal S256x512 .f32) (aBmap : FVec Ideal S256 .f32)
  (t : ℕ) (ht : t < 5)
  (h0 : ∀ p : Fin 2000, x0 (ix2 p (0 : Fin 1)) = aTs (ix1 (row t ht p)))
  (h1 : ∀ p : Fin 2000, x1 (ix2 p (0 : Fin 1)) = aMts (ix1 (row t ht p)))
  (h2 : ∀ k : Fin 128, x2 (ix2 (0 : Fin 1) k) = if h : k.val < 100 then aTb (ix1 (⟨k.val, h⟩ : Fin 100)) else 0)
  (h3 : ∀ (p : Fin 2000) (k : Fin 256), x3 (ix2 p k) = aX (ix2 (row t ht p) k))
  (h4 : ∀ (p : Fin 2000) (k : Fin 256), x4 (ix2 p k) = aMem (ix2 (row t ht p) k))
  (h5 : ∀ (p : Fin 2000) (k : Fin 512), x5 (ix2 p k) = aH (ix2 (row t ht p) k))
  (h6 : ∀ k : Fin 128, x6 (ix2 (0 : Fin 1) k) = if h : k.val < 100 then aTw (ix1 (⟨k.val, h⟩ : Fin 100)) + 0 else 0)
  (h7 : ∀ (k : Fin 256) (j : Fin 768), x7 (ix2 k j) = aWih (ix2 j (⟨k.val, by have := k.isLt; omega⟩ : Fin 356)))
  (h8 : ∀ (k : Fin 128) (j : Fin 768), x8 (ix2 k j)
    = if h : k.val < 100 then aWih (ix2 j (⟨256 + k.val, by omega⟩ : Fin 356)) else 0)
  (h9 : ∀ (k : Fin 256) (j : Fin 768), x9 (ix2 k j) = aWhh (ix2 j k))
  (h10 : ∀ (k : Fin 512) (j : Fin 256), x10 (ix2 k j) = aWmap (ix2 j k))
  (h11 : ∀ j : Fin 768, x11 (ix2 (0 : Fin 1) j) = aBih (ix1 j))
  (h12 : ∀ j : Fin 768, x12 (ix2 (0 : Fin 1) j) = aBhh (ix1 j))
  (h13 : ∀ j : Fin 256, x13 (ix2 (0 : Fin 1) j) = aBmap (ix1 j))

omit t ht h0 h1 h2 h3 h4 h5 h6 h7 h8 h9 h10 h11 h12 h13 in
/-- The stored value at block row p, column q: the body's payloads composed. -/
theorem pay_apply (p : Fin 2000) (q : Fin 256) :
    Gen.k0_pay1 (F := Ideal) x4 (Gen.k0_pay2 x0 x1 x6 x2 x3 x7 x8 x11) (Gen.k0_pay3 x4 x9) (Gen.k0_pay4 x12) x5 x10 x13 (ix2 p q)
      = bout x0 x1 x2 x3 x4 x5 x6 x7 x8 x9 x10 x11 x12 x13 p q := by
  rw [pay1_apply]
  simp only [pay2_apply, pay3_apply, pay4_apply]
  rfl

include h0 h1 h2 h6 in
/-- A lane below 100 of the padded time encoding is the time encoding. -/
theorem btf_eq (p : Fin 2000) (k : Fin 100) :
    btf x0 x1 x2 x6 p (⟨k.val, by have := k.isLt; omega⟩ : Fin 128) = timeFeat aTs aMts aTw aTb (row t ht p) k := by
  have hk : ((⟨k.val, by have := k.isLt; omega⟩ : Fin 128)).val < 100 := k.isLt
  unfold btf timeFeat
  rw [h0, h1, h6, h2]
  simp only [dif_pos hk, add_zero]

include h0 h1 h2 h3 h6 h7 h8 h11 in
/-- The input gates' pre-activation over the blocks is the specification's at the array row. -/
theorem bgi_eq (p : Fin 2000) (c : Fin 768) :
    bgi x0 x1 x2 x3 x6 x7 x8 x11 p c = gi aX aTs aMts aTw aTb aWih aBih (row t ht p) c := by
  unfold bgi gi
  have s1 : ∑ k : Fin 256, x3 (ix2 p k) * x7 (ix2 k c)
      = ∑ k : Fin 256, aX (ix2 (row t ht p) k) * aWih (ix2 c (⟨k.val, by have := k.isLt; omega⟩ : Fin 356)) :=
    Finset.sum_congr rfl fun k _ => by rw [h3, h7]
  have s2 : ∑ k : Fin 128, btf x0 x1 x2 x6 p k * x8 (ix2 k c)
      = ∑ k : Fin 100, timeFeat aTs aMts aTw aTb (row t ht p) k
          * aWih (ix2 c (⟨256 + k.val, by have := k.isLt; omega⟩ : Fin 356)) := by
    rw [sum_pad_128 (fun k => btf x0 x1 x2 x6 p k * x8 (ix2 k c)) (fun k => by
      have hk : ¬ ((⟨100 + k.val, by have := k.isLt; omega⟩ : Fin 128)).val < 100 := by
        show ¬ (100 + k.val < 100); omega
      show btf x0 x1 x2 x6 p _ * x8 (ix2 (⟨100 + k.val, by have := k.isLt; omega⟩ : Fin 128) c) = 0
      rw [h8, dif_neg hk, mul_zero])]
    refine Finset.sum_congr rfl fun k _ => ?_
    have hk : ((⟨k.val, by have := k.isLt; omega⟩ : Fin 128)).val < 100 := k.isLt
    show btf x0 x1 x2 x6 p (⟨k.val, by have := k.isLt; omega⟩ : Fin 128)
        * x8 (ix2 (⟨k.val, by have := k.isLt; omega⟩ : Fin 128) c) = _
    rw [btf_eq x0 x1 x2 x6 aTs aMts aTw aTb t ht h0 h1 h2 h6 p k, h8, dif_pos hk]
  rw [s1, s2, h11]

include h4 h9 h12 in
/-- The hidden gates' pre-activation over the blocks is the specification's at the array row. -/
theorem bgh_eq (p : Fin 2000) (c : Fin 768) :
    bgh x4 x9 x12 p c = gh aMem aWhh aBhh (row t ht p) c := by
  unfold bgh gh
  rw [h12]
  exact congrArg (· + aBhh (ix1 c)) (Finset.sum_congr rfl fun k _ => by rw [h4, h9])

include h0 h1 h2 h3 h4 h5 h6 h7 h8 h9 h10 h11 h12 h13 in
/-- The body's value over the blocks of grid point t is the specification at the array row. -/
theorem bout_eq (p : Fin 2000) (q : Fin 256) :
    bout x0 x1 x2 x3 x4 x5 x6 x7 x8 x9 x10 x11 x12 x13 p q
      = out aX aMem aTs aMts aH aTw aTb aWih aWhh aBih aBhh aWmap aBmap (ix2 (row t ht p) q) := by
  have gi_ := bgi_eq x0 x1 x2 x3 x6 x7 x8 x11 aX aTs aMts aTw aTb aWih aBih t ht h0 h1 h2 h3 h6 h7 h8 h11 p
  have gh_ := bgh_eq x4 x9 x12 aMem aWhh aBhh t ht h4 h9 h12 p
  have sh : ∑ k : Fin 512, x5 (ix2 p k) * x10 (ix2 k q)
      = ∑ k : Fin 512, aH (ix2 (row t ht p) k) * aWmap (ix2 q k) :=
    Finset.sum_congr rfl fun k _ => by rw [h5, h10]
  unfold bout bzg bng brg out zg ng rg
  rw [gi_ (band0 q), gi_ (band1 q), gi_ (band2 q), gh_ (band0 q), gh_ (band1 q), gh_ (band2 q), sh, h4, h13]

end Cert.KernelIdeal.Bridge

end
-- ==== Proof.Blocks.lean ====
/-
  From what each grid point writes back to the whole result array.  Grid point t of 5 writes rows
  [2000 t, 2000 t + 2000) of the [10000, 256] result; its input blocks are rows of the same range of ts, mts, x, mem
  and h, and the whole weight and bias arrays.  So what point t writes is block t of the specification applied to the
  argument arrays; the five blocks tile the result (row r lies in block r / 2000), hence the result array IS the
  specification, and the kernel's run ends with it there and the arguments unchanged.
-/
import proofs.«108682_g31224412242761_cont_9to1_2055_3_alg».proof.Proof.Gen.KernelIdeal.Value
import proofs.«108682_g31224412242761_cont_9to1_2055_3_alg».proof.Proof.HostWindows
import proofs.«108682_g31224412242761_cont_9to1_2055_3_alg».proof.Proof.Bridge
import Idealize.ShloMosaic.Lib.Pipeline.Value
import Idealize.ShloMosaic.Lib.ValueIdx

noncomputable section

namespace Cert.KernelIdeal.Blocks

open Cert.KernelIdeal Cert.KernelIdeal.Gen Cert.KernelIdeal.Value Cert.KernelIdeal.Win Cert.KernelIdeal.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has five points. -/
theorem lt5 (t : Fin cfg0.N) : t.val < 5 := by
  have h : t.val < grid0.N := t.isLt
  rw [N_0] at h; exact h

/-- The result array as the specification of the argument arrays. -/
abbrev Gout (c : Dev nD) : FVec Ideal S10000x256 .f32 :=
  Cert.Spec.out (aX m c) (aMem m c) (aTs m c) (aMts m c) (aH m c) (aTw m c) (aTb m c) (aWih m c) (aWhh m c)
    (aBih m c) (aBhh m c) (aWmap m c) (aBmap m c)

/-! ## The index maps over the grid: six windows move with the grid's row block, nine stay at block (0, 0) -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-! ## A block's coordinate in its array: block index times block size plus the coordinate inside the block -/

theorem emb0 (t : Fin cfg0.N) (p : Fin 2000) (k : Fin 1) :
    ((cfg0.win 0).blk t).view.emb (ix2 p k) = ix2 (row t.val (lt5 t) p) k := by
  obtain ⟨e0, e1⟩ := idx0 t
  funext a; apply Fin.ext
  match a with
  | ⟨0, _⟩ => show win0_0.index t (0 : Fin 2) * 2000 + 1 * p.val = 2000 * t.val + p.val; rw [e0]; omega
  | ⟨1, _⟩ => show win0_0.index t (1 : Fin 2) * 1 + 1 * k.val = k.val; rw [e1]; omega
theorem emb1 (t : Fin cfg0.N) (p : Fin 2000) (k : Fin 1) :
    ((cfg0.win 1).blk t).view.emb (ix2 p k) = ix2 (row t.val (lt5 t) p) k := by
  obtain ⟨e0, e1⟩ := idx1 t
  funext a; apply Fin.ext
  match a with
  | ⟨0, _⟩ => show win0_1.index t (0 : Fin 2) * 2000 + 1 * p.val = 2000 * t.val + p.val; rw [e0]; omega
  | ⟨1, _⟩ => show win0_1.index t (1 : Fin 2) * 1 + 1 * k.val = k.val; rw [e1]; omega
theorem emb3 (t : Fin cfg0.N) (p : Fin 2000) (k : Fin 256) :
    ((cfg0.win 3).blk t).view.emb (ix2 p k) = ix2 (row t.val (lt5 t) p) k := by
  obtain ⟨e0, e1⟩ := idx3 t
  funext a; apply Fin.ext
  match a with
  | ⟨0, _⟩ => show win0_3.index t (0 : Fin 2) * 2000 + 1 * p.val = 2000 * t.val + p.val; rw [e0]; omega
  | ⟨1, _⟩ => show win0_3.index t (1 : Fin 2) * 256 + 1 * k.val = k.val; rw [e1]; omega
theorem emb4 (t : Fin cfg0.N) (p : Fin 2000) (k : Fin 256) :
    ((cfg0.win 4).blk t).view.emb (ix2 p k) = ix2 (row t.val (lt5 t) p) k := by
  obtain ⟨e0, e1⟩ := idx4 t
  funext a; apply Fin.ext
  match a with
  | ⟨0, _⟩ => show win0_4.index t (0 : Fin 2) * 2000 + 1 * p.val = 2000 * t.val + p.val; rw [e0]; omega
  | ⟨1, _⟩ => show win0_4.index t (1 : Fin 2) * 256 + 1 * k.val = k.val; rw [e1]; omega
theorem emb5 (t : Fin cfg0.N) (p : Fin 2000) (k : Fin 512) :
    ((cfg0.win 5).blk t).view.emb (ix2 p k) = ix2 (row t.val (lt5 t) p) k := by
  obtain ⟨e0, e1⟩ := idx5 t
  funext a; apply Fin.ext
  match a with
  | ⟨0, _⟩ => show win0_5.index t (0 : Fin 2) * 2000 + 1 * p.val = 2000 * t.val + p.val; rw [e0]; omega
  | ⟨1, _⟩ => show win0_5.index t (1 : Fin 2) * 512 + 1 * k.val = k.val; rw [e1]; omega
theorem emb14 (t : Fin cfg0.N) (p : Fin 2000) (k : Fin 256) :
    ((cfg0.win 14).blk t).view.emb (ix2 p k) = ix2 (row t.val (lt5 t) p) k := by
  obtain ⟨e0, e1⟩ := idx14 t
  funext a; apply Fin.ext
  match a with
  | ⟨0, _⟩ => show win0_14.index t (0 : Fin 2) * 2000 + 1 * p.val = 2000 * t.val + p.val; rw [e0]; omega
  | ⟨1, _⟩ => show win0_14.index t (1 : Fin 2) * 256 + 1 * k.val = k.val; rw [e1]; omega
theorem emb2 (t : Fin cfg0.N) (a : Fin 1) (b : Fin 128) :
    ((cfg0.win 2).blk t).view.emb (ix2 a b) = ix2 a b := by
  obtain ⟨e0, e1⟩ := idx2 t
  funext ax; apply Fin.ext
  match ax with
  | ⟨0, _⟩ => show win0_2.index t (0 : Fin 2) * 1 + 1 * a.val = a.val; rw [e0]; omega
  | ⟨1, _⟩ => show win0_2.index t (1 : Fin 2) * 128 + 1 * b.val = b.val; rw [e1]; omega
theorem emb6 (t : Fin cfg0.N) (a : Fin 1) (b : Fin 128) :
    ((cfg0.win 6).blk t).view.emb (ix2 a b) = ix2 a b := by
  obtain ⟨e0, e1⟩ := idx6 t
  funext ax; apply Fin.ext
  match ax with
  | ⟨0, _⟩ => show win0_6.index t (0 : Fin 2) * 1 + 1 * a.val = a.val; rw [e0]; omega
  | ⟨1, _⟩ => show win0_6.index t (1 : Fin 2) * 128 + 1 * b.val = b.val; rw [e1]; omega
theorem emb7 (t : Fin cfg0.N) (a : Fin 256) (b : Fin 768) :
    ((cfg0.win 7).blk t).view.emb (ix2 a b) = ix2 a b := by
  obtain ⟨e0, e1⟩ := idx7 t
  funext ax; apply Fin.ext
  match ax with
  | ⟨0, _⟩ => show win0_7.index t (0 : Fin 2) * 256 + 1 * a.val = a.val; rw [e0]; omega
  | ⟨1, _⟩ => show win0_7.index t (1 : Fin 2) * 768 + 1 * b.val = b.val; rw [e1]; omega
theorem emb8 (t : Fin cfg0.N) (a : Fin 128) (b : Fin 768) :
    ((cfg0.win 8).blk t).view.emb (ix2 a b) = ix2 a b := by
  obtain ⟨e0, e1⟩ := idx8 t
  funext ax; apply Fin.ext
  match ax with
  | ⟨0, _⟩ => show win0_8.index t (0 : Fin 2) * 128 + 1 * a.val = a.val; rw [e0]; omega
  | ⟨1, _⟩ => show win0_8.index t (1 : Fin 2) * 768 + 1 * b.val = b.val; rw [e1]; omega
theorem emb9 (t : Fin cfg0.N) (a : Fin 256) (b : Fin 768) :
    ((cfg0.win 9).blk t).view.emb (ix2 a b) = ix2 a b := by
  obtain ⟨e0, e1⟩ := idx9 t
  funext ax; apply Fin.ext
  match ax with
  | ⟨0, _⟩ => show win0_9.index t (0 : Fin 2) * 256 + 1 * a.val = a.val; rw [e0]; omega
  | ⟨1, _⟩ => show win0_9.index t (1 : Fin 2) * 768 + 1 * b.val = b.val; rw [e1]; omega
theorem emb10 (t : Fin cfg0.N) (a : Fin 512) (b : Fin 256) :
    ((cfg0.win 10).blk t).view.emb (ix2 a b) = ix2 a b := by
  obtain ⟨e0, e1⟩ := idx10 t
  funext ax; apply Fin.ext
  match ax with
  | ⟨0, _⟩ => show win0_10.index t (0 : Fin 2) * 512 + 1 * a.val = a.val; rw [e0]; omega
  | ⟨1, _⟩ => show win0_10.index t (1 : Fin 2) * 256 + 1 * b.val = b.val; rw [e1]; omega
theorem emb11 (t : Fin cfg0.N) (a : Fin 1) (b : Fin 768) :
    ((cfg0.win 11).blk t).view.emb (ix2 a b) = ix2 a b := by
  obtain ⟨e0, e1⟩ := idx11 t
  funext ax; apply Fin.ext
  match ax with
  | ⟨0, _⟩ => show win0_11.index t (0 : Fin 2) * 1 + 1 * a.val = a.val; rw [e0]; omega
  | ⟨1, _⟩ => show win0_11.index t (1 : Fin 2) * 768 + 1 * b.val = b.val; rw [e1]; omega
theorem emb12 (t : Fin cfg0.N) (a : Fin 1) (b : Fin 768) :
    ((cfg0.win 12).blk t).view.emb (ix2 a b) = ix2 a b := by
  obtain ⟨e0, e1⟩ := idx12 t
  funext ax; apply Fin.ext
  match ax with
  | ⟨0, _⟩ => show win0_12.index t (0 : Fin 2) * 1 + 1 * a.val = a.val; rw [e0]; omega
  | ⟨1, _⟩ => show win0_12.index t (1 : Fin 2) * 768 + 1 * b.val = b.val; rw [e1]; omega
theorem emb13 (t : Fin cfg0.N) (a : Fin 1) (b : Fin 256) :
    ((cfg0.win 13).blk t).view.emb (ix2 a b) = ix2 a b := by
  obtain ⟨e0, e1⟩ := idx13 t
  funext ax; apply Fin.ext
  match ax with
  | ⟨0, _⟩ => show win0_13.index t (0 : Fin 2) * 1 + 1 * a.val = a.val; rw [e0]; omega
  | ⟨1, _⟩ => show win0_13.index t (1 : Fin 2) * 256 + 1 * b.val = b.val; rw [e1]; omega

/-! ## Each input block read in terms of the argument arrays -/

theorem blk0 (c : Dev nD) (t : Fin cfg0.N) (p : Fin 2000) :
    iblk m c 0 t (ix2 p (0 : Fin 1)) = aTs m c (ix1 (row t.val (lt5 t) p)) := by
  show vTs m c (((cfg0.win 0).blk t).view.emb (ix2 p (0 : Fin 1))) = _
  rw [emb0]; exact vTs_apply m c _

theorem blk1 (c : Dev nD) (t : Fin cfg0.N) (p : Fin 2000) :
    iblk m c 1 t (ix2 p (0 : Fin 1)) = aMts m c (ix1 (row t.val (lt5 t) p)) := by
  show vMts m c (((cfg0.win 1).blk t).view.emb (ix2 p (0 : Fin 1))) = _
  rw [emb1]; exact vMts_apply m c _

theorem blk2 (c : Dev nD) (t : Fin cfg0.N) (k : Fin 128) :
    iblk m c 2 t (ix2 (0 : Fin 1) k) = if h : k.val < 100 then aTb m c (ix1 (⟨k.val, h⟩ : Fin 100)) else 0 := by
  show vTb m c (((cfg0.win 2).blk t).view.emb (ix2 (0 : Fin 1) k)) = _
  rw [emb2]; exact vTb_apply m c k

theorem blk3 (c : Dev nD) (t : Fin cfg0.N) (p : Fin 2000) (k : Fin 256) :
    iblk m c 3 t (ix2 p k) = aX m c (ix2 (row t.val (lt5 t) p) k) := by
  show V m c main_arg0 (((cfg0.win 3).blk t).view.emb (ix2 p k)) = _
  rw [emb3]; exact congrFun (V_main_arg0 m c) _

theorem blk4 (c : Dev nD) (t : Fin cfg0.N) (p : Fin 2000) (k : Fin 256) :
    iblk m c 4 t (ix2 p k) = aMem m c (ix2 (row t.val (lt5 t) p) k) := by
  show V m c main_arg1 (((cfg0.win 4).blk t).view.emb (ix2 p k)) = _
  rw [emb4]; exact congrFun (V_main_arg1 m c) _

theorem blk5 (c : Dev nD) (t : Fin cfg0.N) (p : Fin 2000) (k : Fin 512) :
    iblk m c 5 t (ix2 p k) = aH m c (ix2 (row t.val (lt5 t) p) k) := by
  show V m c main_arg4 (((cfg0.win 5).blk t).view.emb (ix2 p k)) = _
  rw [emb5]; exact congrFun (V_main_arg4 m c) _

theorem blk6 (c : Dev nD) (t : Fin cfg0.N) (k : Fin 128) :
    iblk m c 6 t (ix2 (0 : Fin 1) k) = if h : k.val < 100 then aTw m c (ix1 (⟨k.val, h⟩ : Fin 100)) + 0 else 0 := by
  show vTw m c (((cfg0.win 6).blk t).view.emb (ix2 (0 : Fin 1) k)) = _
  rw [emb6]; exact vTw_apply m c k

theorem blk7 (c : Dev nD) (t : Fin cfg0.N) (k : Fin 256) (j : Fin 768) :
    iblk m c 7 t (ix2 k j) = aWih m c (ix2 j (⟨k.val, by have := k.isLt; omega⟩ : Fin 356)) := by
  show vW1 m c (((cfg0.win 7).blk t).view.emb (ix2 k j)) = _
  rw [emb7]; exact vW1_apply m c k j

theorem blk8 (c : Dev nD) (t : Fin cfg0.N) (k : Fin 128) (j : Fin 768) :
    iblk m c 8 t (ix2 k j) = if h : k.val < 100 then aWih m c (ix2 j (⟨256 + k.val, by omega⟩ : Fin 356)) else 0 := by
  show vW2 m c (((cfg0.win 8).blk t).view.emb (ix2 k j)) = _
  rw [emb8]; exact vW2_apply m c k j

theorem blk9 (c : Dev nD) (t : Fin cfg0.N) (k : Fin 256) (j : Fin 768) :
    iblk m c 9 t (ix2 k j) = aWhh m c (ix2 j k) := by
  show vWh m c (((cfg0.win 9).blk t).view.emb (ix2 k j)) = _
  rw [emb9]; exact vWh_apply m c k j

theorem blk10 (c : Dev nD) (t : Fin cfg0.N) (k : Fin 512) (j : Fin 256) :
    iblk m c 10 t (ix2 k j) = aWmap m c (ix2 j k) := by
  show vWm m c (((cfg0.win 10).blk t).view.emb (ix2 k j)) = _
  rw [emb10]; exact vWm_apply m c k j

theorem blk11 (c : Dev nD) (t : Fin cfg0.N) (j : Fin 768) :
    iblk m c 11 t (ix2 (0 : Fin 1) j) = aBih m c (ix1 j) := by
  show vBih m c (((cfg0.win 11).blk t).view.emb (ix2 (0 : Fin 1) j)) = _
  rw [emb11]; exact vBih_apply m c j

theorem blk12 (c : Dev nD) (t : Fin cfg0.N) (j : Fin 768) :
    iblk m c 12 t (ix2 (0 : Fin 1) j) = aBhh m c (ix1 j) := by
  show vBhh m c (((cfg0.win 12).blk t).view.emb (ix2 (0 : Fin 1) j)) = _
  rw [emb12]; exact vBhh_apply m c j

theorem blk13 (c : Dev nD) (t : Fin cfg0.N) (j : Fin 256) :
    iblk m c 13 t (ix2 (0 : Fin 1) j) = aBmap m c (ix1 j) := by
  show vBmap m c (((cfg0.win 13).blk t).view.emb (ix2 (0 : Fin 1) j)) = _
  rw [emb13]; exact vBmap_apply m c j

/-! ## What a point writes back, the cover, and the run -/

/-- What grid point t writes back is block t of the specification of the argument arrays. -/
theorem flushed_eq (c : Dev nD) (t : Fin cfg0.N) :
    (dats m 0 c).flushed 14 t = ((cfg0.win 14).blk t).view.read (Elt Ideal) (Gout m c) := by
  rw [flushed14]
  unfold out0_14
  rw [View.canon_unit_zero hz]
  simp only [View.ld_unit_zero (S := S2000x1) hz, View.ld_unit_zero (S := S1x128) hz, View.ld_unit_zero (S := S2000x256) hz,
    View.ld_unit_zero (S := S256x768) hz, View.ld_unit_zero (S := S128x768) hz, View.ld_unit_zero (S := S1x768) hz,
    View.ld_unit_zero (S := S2000x512) hz, View.ld_unit_zero (S := S512x256) hz, View.ld_unit_zero (S := S1x256) hz]
  funext y
  obtain ⟨p, q, rfl⟩ : ∃ (p : Fin 2000) (q : Fin 256), y = ix2 p q := ⟨y 0, y 1, eq_ix2 y⟩
  show k0_pay1 (F := Ideal) (iblk m c 4 t)
      (k0_pay2 (iblk m c 0 t) (iblk m c 1 t) (iblk m c 6 t) (iblk m c 2 t) (iblk m c 3 t) (iblk m c 7 t) (iblk m c 8 t) (iblk m c 11 t))
      (k0_pay3 (iblk m c 4 t) (iblk m c 9 t)) (k0_pay4 (iblk m c 12 t)) (iblk m c 5 t) (iblk m c 10 t) (iblk m c 13 t) (ix2 p q)
    = Gout m c (((cfg0.win 14).blk t).view.emb (ix2 p q))
  rw [emb14]
  refine (pay_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) p q).trans ?_
  exact bout_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (aX m c) (aMem m c) (aTs m c) (aMts m c) (aH m c) (aTw m c) (aTb m c) (aWih m c) (aWhh m c) (aBih m c) (aBhh m c)
    (aWmap m c) (aBmap m c) t.val (lt5 t)
    (blk0 m c t) (blk1 m c t) (blk2 m c t) (blk3 m c t) (blk4 m c t) (blk5 m c t) (blk6 m c t) (blk7 m c t) (blk8 m c t)
    (blk9 m c t) (blk10 m c t) (blk11 m c t) (blk12 m c t) (blk13 m c t) p q

/-- An index of the result is in point t's block iff each coordinate is in the block's range on its axis. -/
theorem mem_blk (t : Fin cfg0.N) (i : S10000x256.Idx) :
    i ∈ ((cfg0.win 14).blk t).view.set ↔ ∀ a : Fin 2, win0_14.index t a * S2000x256.size a ≤ (i a).val
      ∧ (i a).val < win0_14.index t a * S2000x256.size a + S2000x256.size a := by
  show i ∈ ((View.whole main_v0).slice (win0_14.rect t)).set ↔ _
  rw [View.set_slice_whole, Rect.mem_set_unit]
  exact Iff.rfl

/-- Every row block is some point's. -/
theorem idx_onto : ∀ q0 : Fin 5, ∃ t : Fin cfg0.N, win0_14.index t = ![q0.val, 0] :=
  (by decide +kernel : ∀ q0 : Fin 5, ∃ t : Fin grid0.N, win0_14.index t = ![q0.val, 0])

/-- Every index of the result lies in the block of the point r / 2000. -/
theorem cover (i : S10000x256.Idx) :
    ∃ t : Fin cfg0.N, (cfg0.win 14).flush t = true ∧ i ∈ ((cfg0.win 14).blk t).view.set := by
  have hi0 : (i 0).val < 10000 := (i 0).isLt
  have hi1 : (i 1).val < 256 := (i 1).isLt
  obtain ⟨t, ht⟩ := idx_onto ⟨(i 0).val / 2000, by omega⟩
  have q0 : win0_14.index t (0 : Fin 2) = (i 0).val / 2000 := congrFun ht 0
  have q1 : win0_14.index t (1 : Fin 2) = 0 := congrFun ht 1
  refine ⟨t, flush0_14 t, ?_⟩
  rw [mem_blk]
  intro a
  match a with
  | ⟨0, _⟩ =>
    show win0_14.index t (0 : Fin 2) * 2000 ≤ (i 0).val ∧ (i 0).val < win0_14.index t (0 : Fin 2) * 2000 + 2000
    omega
  | ⟨1, _⟩ =>
    show win0_14.index t (1 : Fin 2) * 256 ≤ (i 1).val ∧ (i 1).val < win0_14.index t (1 : Fin 2) * 256 + 256
    omega

/-- The result array after the run is the specification of the argument arrays. -/
theorem final (c : Dev nD) : (dats m 0 c).arrAt 14 cfg0.N = Gout m c :=
  (dats m 0 c).arrAt_eq_of_cover 14 (Gout m c) (fun t _ => flushed_eq m c t) cover

/-- The kernel's run ends with the specification in the result array and the arguments unchanged. -/
theorem run : θ_run defs (onTc (τ := τ) (main (F := Ideal))) ⟨m, fun _ => 0, ρ⟩ fun r => ∀ c : Dev nD,
      r.2.mem ((c : Thread nD τ).loc main_v0) = Gout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.Blocks

end
-- ==== Proof.RefIsSpec.lean ====
/-
  The reference program's result, read at the exact reals, is the specification function.

  The reference computes, for row r and hidden column j,
    tf r k  = cos ((ts r - mts r) * tw k + tb k)                      (k < 100)
    gi r c  = (∑ k < 356, [x r, tf r] k * Wih c k) + bih c            (c < 768)
    gh r c  = (∑ k < 256, mem r k * Whh c k) + bhh c
    rg, zg  = 1 / (1 + e^(-(gi + gh))) on the first and second band of 256 columns,
    ng      = tanh (gi + rg * gh) on the third band,
    out r j = ((1 - zg) * ng + zg * mem r j + ∑ k < 512, h r k * Wmap j k) + bmap j.
  Each stage is read at an index from the stages below it.  The only step that is not a pointwise reading is the
  contraction over the concatenated row [x r, tf r]: its 356 terms are split into the first 256, where the row is
  x r, and the last 100, where it is tf r; the order of the terms inside each sum is unchanged.
-/
import proofs.«108682_g31224412242761_cont_9to1_2055_3_alg».proof.Proof.Gen.ReferenceIdeal.Read
import proofs.«108682_g31224412242761_cont_9to1_2055_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefIsSpec

open Cert.ReferenceIdeal Idealize.ShloMosaic Idealize.ShloMosaic.ValueIdx
open Cert.ReferenceIdeal.Read

/-! ### Where each stage reads its operands

Every layout operation reads its operand at an index computed from the result's index.  Composed along the program,
these index functions are the coordinate constructors: a row index r, a column index, or the pair of them. -/

section Indices
variable (r : Fin 10000)

/-- The time difference is read at the row. -/
theorem idx_ts (k : Fin 100) : idx_main_v1 (idx_main_v3 (ix2 r k)) = ix1 r :=
  funext fun a => Fin.ext (by match a with | ⟨0, _⟩ => rfl)

/-- The time weight is read at the feature. -/
theorem idx_tw (k : Fin 100) : idx_main_v2 (idx_main_v4 (ix2 r k)) = ix1 k :=
  funext fun a => Fin.ext (by match a with | ⟨0, _⟩ => rfl)

/-- The time bias is read at the feature. -/
theorem idx_tb (k : Fin 100) : idx_main_v6 (idx_main_v7 (ix2 r k)) = ix1 k :=
  funext fun a => Fin.ext (by match a with | ⟨0, _⟩ => rfl)

/-- Term k of the input contraction reads the concatenated row at (r, k). -/
theorem lidx12 (c : Fin 768) (k : Fin 356) : lidx_main_v12 (ix2 r c) k = ix2 r k :=
  funext fun a => Fin.ext (by match a with | ⟨0, _⟩ => rfl | ⟨1, _⟩ => rfl)

/-- Term k of the input contraction reads the transposed input weights at (k, c), that is the weights at (c, k). -/
theorem ridx12 (c : Fin 768) (k : Fin 356) : idx_main_v11 (ridx_main_v12 (ix2 r c) k) = ix2 c k :=
  funext fun a => Fin.ext (by match a with | ⟨0, _⟩ => rfl | ⟨1, _⟩ => rfl)

/-- The input bias is read at the gate column. -/
theorem idx_bih (c : Fin 768) : idx_main_v13 (idx_main_v14 (ix2 r c)) = ix1 c :=
  funext fun a => Fin.ext (by match a with | ⟨0, _⟩ => rfl)

/-- Term k of the hidden contraction reads the memory at (r, k). -/
theorem lidx17 (c : Fin 768) (k : Fin 256) : lidx_main_v17 (ix2 r c) k = ix2 r k :=
  funext fun a => Fin.ext (by match a with | ⟨0, _⟩ => rfl | ⟨1, _⟩ => rfl)

/-- Term k of the hidden contraction reads the hidden weights at (c, k). -/
theorem ridx17 (c : Fin 768) (k : Fin 256) : idx_main_v16 (ridx_main_v17 (ix2 r c) k) = ix2 c k :=
  funext fun a => Fin.ext (by match a with | ⟨0, _⟩ => rfl | ⟨1, _⟩ => rfl)

/-- The hidden bias is read at the gate column. -/
theorem idx_bhh (c : Fin 768) : idx_main_v18 (idx_main_v19 (ix2 r c)) = ix1 c :=
  funext fun a => Fin.ext (by match a with | ⟨0, _⟩ => rfl)

/-- The three slices of the input gates read column j of the first, second and third band. -/
theorem idx_i0 (j : Fin 256) : idx_main_v21 (ix2 r j) = ix2 r (Cert.Spec.band0 j) :=
  funext fun a => Fin.ext (by match a with | ⟨0, _⟩ => rfl | ⟨1, _⟩ => rfl)
theorem idx_i1 (j : Fin 256) : idx_main_v22 (ix2 r j) = ix2 r (Cert.Spec.band1 j) :=
  funext fun a => Fin.ext (by match a with | ⟨0, _⟩ => rfl | ⟨1, _⟩ => rfl)
theorem idx_i2 (j : Fin 256) : idx_main_v23 (ix2 r j) = ix2 r (Cert.Spec.band2 j) :=
  funext fun a => Fin.ext (by match a with | ⟨0, _⟩ => rfl | ⟨1, _⟩ => rfl)

/-- The three slices of the hidden gates read column j of the first, second and third band. -/
theorem idx_h0 (j : Fin 256) : idx_main_v24 (ix2 r j) = ix2 r (Cert.Spec.band0 j) :=
  funext fun a => Fin.ext (by match a with | ⟨0, _⟩ => rfl | ⟨1, _⟩ => rfl)
theorem idx_h1 (j : Fin 256) : idx_main_v25 (ix2 r j) = ix2 r (Cert.Spec.band1 j) :=
  funext fun a => Fin.ext (by match a with | ⟨0, _⟩ => rfl | ⟨1, _⟩ => rfl)
theorem idx_h2 (j : Fin 256) : idx_main_v26 (ix2 r j) = ix2 r (Cert.Spec.band2 j) :=
  funext fun a => Fin.ext (by match a with | ⟨0, _⟩ => rfl | ⟨1, _⟩ => rfl)

/-- Term k of the feature map's contraction reads the node feature at (r, k). -/
theorem lidx50 (j : Fin 256) (k : Fin 512) : lidx_main_v50 (ix2 r j) k = ix2 r k :=
  funext fun a => Fin.ext (by match a with | ⟨0, _⟩ => rfl | ⟨1, _⟩ => rfl)

/-- Term k of the feature map's contraction reads the map's weights at (j, k). -/
theorem ridx50 (j : Fin 256) (k : Fin 512) : idx_main_v49 (ridx_main_v50 (ix2 r j) k) = ix2 j k :=
  funext fun a => Fin.ext (by match a with | ⟨0, _⟩ => rfl | ⟨1, _⟩ => rfl)

/-- The map's bias is read at the hidden column. -/
theorem idx_bmap (j : Fin 256) : idx_main_v52 (idx_main_v53 (ix2 r j)) = ix1 j :=
  funext fun a => Fin.ext (by match a with | ⟨0, _⟩ => rfl)

end Indices

/-! ### The stages, bottom-up -/

section Stages
variable (x0 x1 : S10000x256.Idx → EReal) (x2 x3 : S10000.Idx → EReal) (x4 : S10000x512.Idx → EReal)
  (x5 x6 : S100.Idx → EReal) (x7 : S768x356.Idx → EReal) (x8 : S768x256.Idx → EReal)
  (x9 x10 : S768.Idx → EReal) (x11 : S256x512.Idx → EReal) (x12 : S256.Idx → EReal)
  (r : Fin 10000)

/-- The cosine stage at (r, k) is the time encoding cos ((ts r - mts r) * tw k + tb k). -/
theorem tf_apply (k : Fin 100) :
    val_main_v9 (F := Ideal) x2 x3 x5 x6 (ix2 r k) = Cert.Spec.timeFeat x2 x3 x5 x6 r k := by
  rw [val_main_v9_apply, val_main_v8_apply, val_main_v5_apply, val_main_v3_apply, val_main_v1_apply,
    val_main_v0_apply, val_main_v4_apply, val_main_v2_apply, val_main_v7_apply, val_main_v6_apply,
    idx_ts, idx_tw, idx_tb]
  rfl

/-- The concatenated row at a column below 256 is the input row. -/
theorem cat_left (k : Fin 256) :
    val_main_v10 (F := Ideal) x0 x2 x3 x5 x6 (ix2 r (⟨k.val, by have := k.isLt; omega⟩ : Fin 356)) = x0 (ix2 r k) := by
  unfold val_main_v10
  exact concatenate_pair_apply_left (1 : Fin S10000x356.rank) x0 (val_main_v9 (F := Ideal) x2 x3 x5 x6) _ _ rfl (ix2 r k) (fun c => match c with
    | ⟨0, _⟩ => rfl
    | ⟨1, _⟩ => rfl)

/-- The concatenated row at column 256 + k is the time encoding's feature k. -/
theorem cat_right (k : Fin 100) :
    val_main_v10 (F := Ideal) x0 x2 x3 x5 x6 (ix2 r (⟨256 + k.val, by have := k.isLt; omega⟩ : Fin 356))
      = val_main_v9 (F := Ideal) x2 x3 x5 x6 (ix2 r k) := by
  unfold val_main_v10
  exact concatenate_pair_apply_right (1 : Fin S10000x356.rank) x0 (val_main_v9 (F := Ideal) x2 x3 x5 x6) _ _ rfl rfl (ix2 r k) (fun c => match c with
    | ⟨0, _⟩ => fun _ => rfl
    | ⟨1, _⟩ => fun h => absurd rfl h)
    (by show k.val + 256 = 256 + k.val; omega)

/-- A term of the input contraction in the first 256: input times weight. -/
theorem term_x (c : Fin 768) (k : Fin 256) :
    val_main_v10 (F := Ideal) x0 x2 x3 x5 x6 (lidx_main_v12 (ix2 r c) (⟨k.val, by have := k.isLt; omega⟩ : Fin 356))
        * val_main_v11 (F := Ideal) x7 (ridx_main_v12 (ix2 r c) (⟨k.val, by have := k.isLt; omega⟩ : Fin 356))
      = x0 (ix2 r k) * x7 (ix2 c (⟨k.val, by have := k.isLt; omega⟩ : Fin 356)) := by
  rw [lidx12, cat_left, val_main_v11_apply, ridx12]

/-- A term of the input contraction in the last 100: time feature times weight. -/
theorem term_t (c : Fin 768) (k : Fin 100) :
    val_main_v10 (F := Ideal) x0 x2 x3 x5 x6 (lidx_main_v12 (ix2 r c) (⟨256 + k.val, by have := k.isLt; omega⟩ : Fin 356))
        * val_main_v11 (F := Ideal) x7 (ridx_main_v12 (ix2 r c) (⟨256 + k.val, by have := k.isLt; omega⟩ : Fin 356))
      = Cert.Spec.timeFeat x2 x3 x5 x6 r k * x7 (ix2 c (⟨256 + k.val, by have := k.isLt; omega⟩ : Fin 356)) := by
  rw [lidx12, cat_right, tf_apply, val_main_v11_apply, ridx12]

/-- The input gates' pre-activation: the 356-term contraction, split at 256, plus the bias. -/
theorem gi_apply (c : Fin 768) :
    val_main_v15 (F := Ideal) x0 x2 x3 x5 x6 x7 x9 (ix2 r c) = Cert.Spec.gi x0 x2 x3 x5 x6 x7 x9 r c := by
  rw [val_main_v15_apply, val_main_v12_apply, val_main_v14_apply, val_main_v13_apply, idx_bih,
    Cert.Spec.sum_split_356, Ideal.addf_def]
  unfold Cert.Spec.gi
  refine congrArg₂ (· + ·) (congrArg₂ (· + ·) ?_ ?_) rfl
  · exact Finset.sum_congr rfl fun k _ => term_x x0 x2 x3 x5 x6 x7 r c k
  · exact Finset.sum_congr rfl fun k _ => term_t x0 x2 x3 x5 x6 x7 r c k

/-- A term of the hidden contraction: memory times weight. -/
theorem term_m (c : Fin 768) (k : Fin 256) :
    x1 (lidx_main_v17 (ix2 r c) k) * val_main_v16 (F := Ideal) x8 (ridx_main_v17 (ix2 r c) k)
      = x1 (ix2 r k) * x8 (ix2 c k) := by
  rw [lidx17, val_main_v16_apply, ridx17]

/-- The hidden gates' pre-activation. -/
theorem gh_apply (c : Fin 768) :
    val_main_v20 (F := Ideal) x1 x8 x10 (ix2 r c) = Cert.Spec.gh x1 x8 x10 r c := by
  rw [val_main_v20_apply, val_main_v17_apply, val_main_v19_apply, val_main_v18_apply, idx_bhh, Ideal.addf_def]
  unfold Cert.Spec.gh
  exact congrArg₂ (· + ·) (Finset.sum_congr rfl fun k _ => term_m x1 x8 r c k) rfl

/-- The three bands of the input gates. -/
theorem gi0 (j : Fin 256) :
    val_main_v21 (F := Ideal) x0 x2 x3 x5 x6 x7 x9 (ix2 r j) = Cert.Spec.gi x0 x2 x3 x5 x6 x7 x9 r (Cert.Spec.band0 j) := by
  rw [val_main_v21_apply, idx_i0, gi_apply]
theorem gi1 (j : Fin 256) :
    val_main_v22 (F := Ideal) x0 x2 x3 x5 x6 x7 x9 (ix2 r j) = Cert.Spec.gi x0 x2 x3 x5 x6 x7 x9 r (Cert.Spec.band1 j) := by
  rw [val_main_v22_apply, idx_i1, gi_apply]
theorem gi2 (j : Fin 256) :
    val_main_v23 (F := Ideal) x0 x2 x3 x5 x6 x7 x9 (ix2 r j) = Cert.Spec.gi x0 x2 x3 x5 x6 x7 x9 r (Cert.Spec.band2 j) := by
  rw [val_main_v23_apply, idx_i2, gi_apply]

/-- The three bands of the hidden gates. -/
theorem gh0 (j : Fin 256) :
    val_main_v24 (F := Ideal) x1 x8 x10 (ix2 r j) = Cert.Spec.gh x1 x8 x10 r (Cert.Spec.band0 j) := by
  rw [val_main_v24_apply, idx_h0, gh_apply]
theorem gh1 (j : Fin 256) :
    val_main_v25 (F := Ideal) x1 x8 x10 (ix2 r j) = Cert.Spec.gh x1 x8 x10 r (Cert.Spec.band1 j) := by
  rw [val_main_v25_apply, idx_h1, gh_apply]
theorem gh2 (j : Fin 256) :
    val_main_v26 (F := Ideal) x1 x8 x10 (ix2 r j) = Cert.Spec.gh x1 x8 x10 r (Cert.Spec.band2 j) := by
  rw [val_main_v26_apply, idx_h2, gh_apply]

/-- The five broadcast constants are the word of 1.0 at every index. -/
theorem one_a (i : S10000x256.Idx) : val_main_v30 (F := Ideal) i = Ideal.ofBits .f32 0x3F800000#32 := by
  rw [val_main_v30_apply, val_main_cst_apply]; rfl
theorem one_b (i : S10000x256.Idx) : val_main_v32 (F := Ideal) i = Ideal.ofBits .f32 0x3F800000#32 := by
  rw [val_main_v32_apply, val_main_cst_0_apply]; rfl
theorem one_c (i : S10000x256.Idx) : val_main_v37 (F := Ideal) i = Ideal.ofBits .f32 0x3F800000#32 := by
  rw [val_main_v37_apply, val_main_cst_1_apply]; rfl
theorem one_d (i : S10000x256.Idx) : val_main_v39 (F := Ideal) i = Ideal.ofBits .f32 0x3F800000#32 := by
  rw [val_main_v39_apply, val_main_cst_2_apply]; rfl
theorem one_e (i : S10000x256.Idx) : val_main_v44 (F := Ideal) i = Ideal.ofBits .f32 0x3F800000#32 := by
  rw [val_main_v44_apply, val_main_cst_3_apply]; rfl

/-- The reset gate: 1 / (1 + e^(-(gi + gh))) on the first band is the logistic function there. -/
theorem rg_apply (j : Fin 256) :
    val_main_v33 (F := Ideal) x0 x1 x2 x3 x5 x6 x7 x8 x9 x10 (ix2 r j) = Cert.Spec.rg x0 x1 x2 x3 x5 x6 x7 x8 x9 x10 r j := by
  rw [val_main_v33_apply, val_main_v31_apply, val_main_v29_apply, val_main_v28_apply, val_main_v27_apply,
    one_b, one_a, gi0, gh0]
  unfold Cert.Spec.rg
  exact Cert.Spec.sigmoid_eq _

/-- The update gate: the same on the second band. -/
theorem zg_apply (j : Fin 256) :
    val_main_v40 (F := Ideal) x0 x1 x2 x3 x5 x6 x7 x8 x9 x10 (ix2 r j) = Cert.Spec.zg x0 x1 x2 x3 x5 x6 x7 x8 x9 x10 r j := by
  rw [val_main_v40_apply, val_main_v38_apply, val_main_v36_apply, val_main_v35_apply, val_main_v34_apply,
    one_d, one_c, gi1, gh1]
  unfold Cert.Spec.zg
  exact Cert.Spec.sigmoid_eq _

/-- The candidate state: tanh (gi + rg * gh) on the third band. -/
theorem ng_apply (j : Fin 256) :
    val_main_v43 (F := Ideal) x0 x1 x2 x3 x5 x6 x7 x8 x9 x10 (ix2 r j) = Cert.Spec.ng x0 x1 x2 x3 x5 x6 x7 x8 x9 x10 r j := by
  rw [val_main_v43_apply, val_main_v42_apply, val_main_v41_apply, gi2, rg_apply, gh2]
  rfl

/-- A term of the feature map's contraction: node feature times weight. -/
theorem term_h (j : Fin 256) (k : Fin 512) :
    x4 (lidx_main_v50 (ix2 r j) k) * val_main_v49 (F := Ideal) x11 (ridx_main_v50 (ix2 r j) k)
      = x4 (ix2 r k) * x11 (ix2 j k) := by
  rw [lidx50, val_main_v49_apply, ridx50]

/-- The result at (r, j). -/
theorem out_apply (j : Fin 256) :
    val_main_v54 (F := Ideal) x0 x1 x2 x3 x4 x5 x6 x7 x8 x9 x10 x11 x12 (ix2 r j) = Cert.Spec.out x0 x1 x2 x3 x4 x5 x6 x7 x8 x9 x10 x11 x12 (ix2 r j) := by
  rw [val_main_v54_apply, val_main_v51_apply, val_main_v48_apply, val_main_v46_apply, val_main_v45_apply,
    val_main_v47_apply, val_main_v50_apply, val_main_v53_apply, val_main_v52_apply, idx_bmap, one_e,
    zg_apply, ng_apply, Finset.sum_congr rfl fun k _ => term_h x4 x11 r j k]
  rfl

end Stages

/-- The reference's value at the exact reals is the specification, as functions of the index. -/
theorem ref_eq (x0 x1 : S10000x256.Idx → EReal) (x2 x3 : S10000.Idx → EReal) (x4 : S10000x512.Idx → EReal)
    (x5 x6 : S100.Idx → EReal) (x7 : S768x356.Idx → EReal) (x8 : S768x256.Idx → EReal)
    (x9 x10 : S768.Idx → EReal) (x11 : S256x512.Idx → EReal) (x12 : S256.Idx → EReal) :
    Cert.ReferenceIdeal.Read.val_main_v54 (F := Ideal) x0 x1 x2 x3 x4 x5 x6 x7 x8 x9 x10 x11 x12
      = Cert.Spec.out x0 x1 x2 x3 x4 x5 x6 x7 x8 x9 x10 x11 x12 := by
  funext i
  obtain ⟨r, j, rfl⟩ : ∃ (r : Fin 10000) (j : Fin 256), i = ix2 r j := ⟨i 0, i 1, eq_ix2 i⟩
  exact out_apply x0 x1 x2 x3 x4 x5 x6 x7 x8 x9 x10 x11 x12 r j

end Cert.RefIsSpec

end
-- ==== Proof.lean ====
/-
  A GRU memory update with a cosine time encoding, fused into one tiled kernel, against its plain reference:
  both compute, for row r and hidden column j,
      out r j = ((1 - z) * n + z * mem r j + ∑ k, h r k * Wmap j k) + bmap j,
      r = σ (gi₀ + gh₀),  z = σ (gi₁ + gh₁),  n = tanh (gi₂ + r * gh₂),
  from gi = [x, cos ((ts - mts) * tw + tb)] · Wihᵀ + bih and gh = mem · Whhᵀ + bhh.
  Over the exact reals the two differ only in arrangement.  The kernel splits the 356-wide contraction into the 256
  input columns and the time columns, padded from 100 to 128 lanes with zero weights (a padded lane contributes
  cos 0 * 0 = 0) and with `tw + 0` for `tw`; it calls the logistic function where the reference spells
  1 / (1 + e^(-x)); and it works on five blocks of 2000 rows that tile the 10000.  The specification (Proof/Spec.lean)
  states the common function; Proof/RefIsSpec.lean shows the reference's value is it, Proof/Payload.lean and
  Proof/Bridge.lean that the kernel's body on one block is it on that block's rows, Proof/HostWindows.lean reads the
  arrays the host prepares (slices, transposes, reshapes and the three zero-padded scatters, by
  Proof/LibScatterSet.lean and Proof/LibScatterBlock.lean), and Proof/Blocks.lean tiles the blocks into the result.
  The kernel's word-level and exact-real frames are the generated ones; the reference's frame is its generated run.
-/
import proofs.«108682_g31224412242761_cont_9to1_2055_3_alg».proof.Defs
import proofs.«108682_g31224412242761_cont_9to1_2055_3_alg».proof.Proof.Gen.Kernel
import proofs.«108682_g31224412242761_cont_9to1_2055_3_alg».proof.Proof.Gen.Kernel.Skeleton
import proofs.«108682_g31224412242761_cont_9to1_2055_3_alg».proof.Proof.Gen.Kernel.Launch
import proofs.«108682_g31224412242761_cont_9to1_2055_3_alg».proof.Proof.Gen.Kernel.Points
import proofs.«108682_g31224412242761_cont_9to1_2055_3_alg».proof.Proof.Gen.Kernel.Frame
import proofs.«108682_g31224412242761_cont_9to1_2055_3_alg».proof.Proof.Gen.KernelIdeal
import proofs.«108682_g31224412242761_cont_9to1_2055_3_alg».proof.Proof.Gen.KernelIdeal.Skeleton
import proofs.«108682_g31224412242761_cont_9to1_2055_3_alg».proof.Proof.Gen.KernelIdeal.Launch
import proofs.«108682_g31224412242761_cont_9to1_2055_3_alg».proof.Proof.Gen.KernelIdeal.Points
import proofs.«108682_g31224412242761_cont_9to1_2055_3_alg».proof.Proof.Gen.KernelIdeal.Frame
import proofs.«108682_g31224412242761_cont_9to1_2055_3_alg».proof.Proof.Gen.ReferenceIdeal
import proofs.«108682_g31224412242761_cont_9to1_2055_3_alg».proof.Proof.Gen.Pre_finite_inputs
import proofs.«108682_g31224412242761_cont_9to1_2055_3_alg».proof.Proof.Gen.KernelIdeal.Value
import proofs.«108682_g31224412242761_cont_9to1_2055_3_alg».proof.Proof.Gen.ReferenceIdeal.Run
import proofs.«108682_g31224412242761_cont_9to1_2055_3_alg».proof.Proof.Gen.ReferenceIdeal.Read
import proofs.«108682_g31224412242761_cont_9to1_2055_3_alg».proof.Proof.Blocks
import proofs.«108682_g31224412242761_cont_9to1_2055_3_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the exact reals. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the exact reals the kernel's result array and the reference's are the same function of arguments that
    agree: the specification. -/
theorem algebraic : Cert.algebraic_KernelIdeal_ReferenceIdeal := by
  intro m ρ m' ρ' _ hagree
  refine ⟨fun c => Cert.KernelIdeal.Blocks.Gout m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v54_eq, Cert.RefIsSpec.ref_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
